-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S1024 : Shape := ⟨1, ![1024]⟩
abbrev S100000x512 : Shape := ⟨2, ![100000, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1024x512 .f32) (main_arg1 : IVec S1024 32) (main_arg2 : FVec F S100000x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S100000x512 .f32 := Host.absf main_arg2
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_c_2 : IVec S_ 32 := constantI S_ 32 0#32
  let main_v9 : IVec S1024 32 := broadcastInDim S1024 ![] bcast_S_S1024 main_c_2
  let main_v10 : IVec S1024 1 := cmpi .sge main_arg1 main_v9
  let main_c_3 : IVec S_ 32 := constantI S_ 32 100000#32
  let main_v11 : IVec S1024 32 := broadcastInDim S1024 ![] bcast_S_S1024 main_c_3
  let main_v12 : IVec S1024 1 := cmpi .slt main_arg1 main_v11
  let main_v13 : IVec S1024 1 := andi main_v10 main_v12
  let main_c_4 : IVec S_ 1 := constantI S_ 1 1#1
  let main_v14 : IVec S_ 1 := (fun x v => Host.reduce IntOp.andi x v reducesTo_S1024_S_d0 h_S_) main_v13 main_c_4
  let main_v15 : IVec S_ 1 := andi main_v8 main_v14
  main_v15
-- ==== Kernel.lean ====
abbrev S1024x512 : Shape := ⟨2, ![1024, 512]⟩
abbrev S1024 : Shape := ⟨1, ![1024]⟩
abbrev S100000x512 : Shape := ⟨2, ![100000, 512]⟩
abbrev S_ : Shape := ⟨0, ![]⟩
abbrev S1024x1 : Shape := ⟨2, ![1024, 1]⟩
abbrev S512x512 : Shape := ⟨2, ![512, 512]⟩
abbrev S2000x512 : Shape := ⟨2, ![2000, 512]⟩
abbrev S512x1 : Shape := ⟨2, ![512, 1]⟩
abbrev S512x2000 : Shape := ⟨2, ![512, 2000]⟩
abbrev S512 : Shape := ⟨1, ![512]⟩

abbrev nBuf : Space → Nat
  | .hbm => 44
  | .vmem => 7
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S100000x512, .f32⟩
  | .hbm, ⟨3, _⟩ => ⟨S1024x512, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x1, .f32⟩
  | .hbm, ⟨8, _⟩ => ⟨S1024x512, .f32⟩
  | .hbm, ⟨9, _⟩ => ⟨S1024x512, .f32⟩
  | .hbm, ⟨10, _⟩ => ⟨S1024x1, .f32⟩
  | .hbm, ⟨11, _⟩ => ⟨S1024, .f32⟩
  | .hbm, ⟨12, _⟩ => ⟨S_, .i32⟩
  | .hbm, ⟨13, _⟩ => ⟨S1024, .i32⟩
  | .hbm, ⟨14, _⟩ => ⟨S1024, .i1⟩
  | .hbm, ⟨15, _⟩ => ⟨S_, .i32⟩
  | .hbm, ⟨16, _⟩ => ⟨S1024, .i32⟩
  | .hbm, ⟨17, _⟩ => ⟨S1024, .i32⟩
  | .hbm, ⟨18, _⟩ => ⟨S1024, .i32⟩
  | .hbm, ⟨19, _⟩ => ⟨S1024x1, .i32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1024, .f32⟩
  | .hbm, ⟨31, _⟩ => ⟨S1024, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S1024, .f32⟩
  | .hbm, ⟨36, _⟩ => ⟨S1024, .f32⟩
  | .hbm, ⟨37, _⟩ => ⟨S1024, .f32⟩
  | .hbm, ⟨38, _⟩ => ⟨S1024, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S2000x512, .f32⟩
  | .local _ .vmem, ⟨3, _⟩ => ⟨S2000x512, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg1 : BitVec 32 := BitVec.ofNat 32 (i 1).val
  let c49_i32 : BitVec 32 := 49#32
  let v19 : BitVec 1 := Scalar.cmpi .eq arg1 c49_i32
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S1024x512_S1024_d1 : S1024x512.ReducesTo [1] S1024
  h_S_ : 0 < S_.numel
  bcast_S1024_S1024x1_0 : S1024.BroadcastsInDim S1024x1 (![0] : Fin 1 → Fin S1024x1.rank)
  bcast_S1024x1_S1024x512_0_1 : S1024x1.BroadcastsInDim S1024x512 (![0, 1] : Fin 2 → Fin S1024x512.rank)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  reduces_S512x2000_S512 : S512x2000.Reduces [1] S512
  shapeCasts_S512_S512x1 : S512.ShapeCasts S512x1
  shapeCasts_S1024x1_S1024 : S1024x1.ShapeCasts S1024
  bcast_S_S1024 : S_.BroadcastsInDim S1024 (![] : Fin 0 → Fin S1024.rank)
  reducesTo_S1024_S_d0 : S1024.ReducesTo [0] S_
  dot_S512x512_S2000x512_S512x2000_1_1_0_0_n_n_wf : DotDims.WF S512x512 S2000x512 S512x2000 [1] [1] [0] [0] [] []
  gather_S100000x512_S1024x1_S1024x512_1_0_n_n_0_1_1512_wf : GatherDims.WF S100000x512 S1024x1 S1024x512 [1] [0] [] [0] [] 1 ![1, 512]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S1024x512.size a
  hwx0_0 : ∀ i : grid0.Coords, EltTy.bits .f32 = 32 ∨ (Rect.block (s := S1024x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S100000x512.size a
  hwx0_1 : ∀ i : grid0.Coords, EltTy.bits .f32 = 32 ∨ (Rect.block (s := S100000x512) S2000x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S1024x1.size a
  hwx0_2 : ∀ i : grid0.Coords, EltTy.bits .f32 = 32 ∨ (Rect.block (s := S1024x1) S512x1.size (cc0_transform_2 i) (hinb0_2 i)).WholeWords (EltTy.packing .f32)

variable [Facts₀]

def dot_S512x512_S2000x512_S512x2000_1_1_0_0_n_n : DotDims S512x512 S2000x512 S512x2000 where
  lhsContracting := [1]
  rhsContracting := [1]
  lhsNonContracting := [0]
  rhsNonContracting := [0]
  lhsBatch := []
  rhsBatch := []
  wf := dot_S512x512_S2000x512_S512x2000_1_1_0_0_n_n_wf
def gather_S100000x512_S1024x1_S1024x512_1_0_n_n_0_1_1512 : GatherDims S100000x512 S1024x1 S1024x512 where
  offsetDims := [1]
  collapsedSliceDims := [0]
  operandBatchingDims := []
  startIndicesBatchingDims := []
  startIndexMap := [0]
  indexVectorDim := 1
  sliceSizes := ![1, 512]
  wf := gather_S100000x512_S1024x1_S1024x512_1_0_n_n_0_1_1512_wf

abbrev win0_0 : Pipeline.Window sig grid0 :=
  Pipeline.Window.ofSpec (Memref.whole main_v2) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S1024x512 : Shape := ⟨2, ![1024, 512]⟩
abbrev S1024 : Shape := ⟨1, ![1024]⟩
abbrev S100000x512 : Shape := ⟨2, ![100000, 512]⟩
abbrev S_ : Shape := ⟨0, ![]⟩
abbrev S1024x1 : Shape := ⟨2, ![1024, 1]⟩
abbrev S1024x100000 : Shape := ⟨2, ![1024, 100000]⟩
abbrev S1024x1x1 : Shape := ⟨3, ![1024, 1, 1]⟩
abbrev S1 : Shape := ⟨1, ![1]⟩
abbrev S1x1x1 : Shape := ⟨3, ![1, 1, 1]⟩

abbrev nBuf : Space → Nat
  | .hbm => 61
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S100000x512, .f32⟩
  | .hbm, ⟨3, _⟩ => ⟨S1024x512, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x1, .f32⟩
  | .hbm, ⟨8, _⟩ => ⟨S1024x512, .f32⟩
  | .hbm, ⟨9, _⟩ => ⟨S1024x512, .f32⟩
  | .hbm, ⟨10, _⟩ => ⟨S1024x100000, .f32⟩
  | .hbm, ⟨11, _⟩ => ⟨S1024x1, .i32⟩
  | .hbm, ⟨12, _⟩ => ⟨S_, .i32⟩
  | .hbm, ⟨13, _⟩ => ⟨S1024x1, .i32⟩
  | .hbm, ⟨14, _⟩ => ⟨S1024x1, .i1⟩
  | .hbm, ⟨15, _⟩ => ⟨S_, .i32⟩
  | .hbm, ⟨16, _⟩ => ⟨S1024x1, .i32⟩
  | .hbm, ⟨17, _⟩ => ⟨S1024x1, .i32⟩
  | .hbm, ⟨18, _⟩ => ⟨S1024x1, .i32⟩
  | .hbm, ⟨19, _⟩ => ⟨S1024x1x1, .i32⟩
  | .hbm, ⟨20, _⟩ => ⟨S1, .i32⟩
  | .hbm, ⟨21, _⟩ => ⟨S_, .i32⟩
  | .hbm, ⟨22, _⟩ => ⟨S1024x1x1, .i32⟩
  | .hbm, ⟨23, _⟩ => ⟨S1024x1x1, .i1⟩
  | .hbm, ⟨24, _⟩ => ⟨S1x1x1, .i32⟩
  | .hbm, ⟨25, _⟩ => ⟨S1024x1x1, .i32⟩
  | .hbm, ⟨26, _⟩ => ⟨S1024x1x1, .i1⟩
  | .hbm, ⟨27, _⟩ => ⟨S1024x1x1, .i1⟩
  | .hbm, ⟨28, _⟩ => ⟨S_, .i1⟩
  | .hbm, ⟨29, _⟩ => ⟨S1024x1, .i1⟩
  | .hbm, ⟨30, _⟩ => ⟨S1024x1, .f32⟩
  | .hbm, ⟨31, _⟩ => ⟨S_, .f32⟩
  | .hbm, ⟨32, _⟩ => ⟨S1024x1, .f32⟩
  | .hbm, ⟨33, _⟩ => ⟨S1024x1, .f32⟩
  | .hbm, ⟨34, _⟩ => ⟨S1024, .f32⟩
  | .hbm, ⟨35, _⟩ => ⟨S_, .f32⟩
  | .hbm, ⟨36, _⟩ => ⟨S1024, .f32⟩
  | .hbm, ⟨37, _⟩ => ⟨S1024, .f32⟩
  | .hbm, ⟨38, _⟩ => ⟨S_, .f32⟩
  | .hbm, ⟨39, _⟩ => ⟨S1024, .f32⟩
  | .hbm, ⟨40, _⟩ => ⟨S1024, .f32⟩
  | .hbm, ⟨41, _⟩ => ⟨S_, .f32⟩
  | .hbm, ⟨42, _⟩ => ⟨S1024x100000, .f32⟩
  | .hbm, ⟨43, _⟩ => ⟨S1024x100000, .f32⟩
  | .hbm, ⟨44, _⟩ => ⟨S1024x100000, .f32⟩
  | .hbm, ⟨45, _⟩ => ⟨S_, .f32⟩
  | .hbm, ⟨46, _⟩ => ⟨S1024, .f32⟩
  | .hbm, ⟨47, _⟩ => ⟨S1024, .f32⟩
  | .hbm, ⟨48, _⟩ => ⟨S1024, .f32⟩
  | .hbm, ⟨49, _⟩ => ⟨S_, .f32⟩
  | .hbm, ⟨50, _⟩ => ⟨S1024, .f32⟩
  | .hbm, ⟨51, _⟩ => ⟨S1024, .f32⟩
  | .hbm, ⟨52, _⟩ => ⟨S1024, .f32⟩
  | .hbm, ⟨53, _⟩ => ⟨S1024, .f32⟩
  | .hbm, ⟨54, _⟩ => ⟨S1024, .f32⟩
  | .hbm, ⟨55, _⟩ => ⟨S1024, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_c : Ref sig .tc := ⟨.hbm, 12, rfl⟩
abbrev main_call1_v0 : Ref sig .tc := ⟨.hbm, 13, rfl⟩
abbrev main_call1_v1 : Ref sig .tc := ⟨.hbm, 14, rfl⟩
abbrev main_call1_c_0 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_call1_v5 : Ref sig .tc := ⟨.hbm, 19, rfl⟩
abbrev main_call1_c_1 : Ref sig .tc := ⟨.hbm, 20, rfl⟩
abbrev main_call1_c_2 : Ref sig .tc := ⟨.hbm, 21, rfl⟩
abbrev main_call1_v6 : Ref sig .tc := ⟨.hbm, 22, rfl⟩
abbrev main_call1_v7 : Ref sig .tc := ⟨.hbm, 23, rfl⟩
abbrev main_call1_v8 : Ref sig .tc := ⟨.hbm, 24, rfl⟩
abbrev main_call1_v9 : Ref sig .tc := ⟨.hbm, 25, rfl⟩
abbrev main_call1_v10 : Ref sig .tc := ⟨.hbm, 26, rfl⟩
abbrev main_call1_v11 : Ref sig .tc := ⟨.hbm, 27, rfl⟩
abbrev main_call1_c_3 : Ref sig .tc := ⟨.hbm, 28, rfl⟩
abbrev main_call1_v12 : Ref sig .tc := ⟨.hbm, 29, rfl⟩
abbrev main_call1_v13 : Ref sig .tc := ⟨.hbm, 30, rfl⟩
abbrev main_call1_cst : Ref sig .tc := ⟨.hbm, 31, rfl⟩
abbrev main_call1_v14 : Ref sig .tc := ⟨.hbm, 32, rfl⟩
abbrev main_v5 : Ref sig .tc := ⟨.hbm, 33, rfl⟩
abbrev main_v6 : Ref sig .tc := ⟨.hbm, 34, rfl⟩
abbrev main_cst : Ref sig .tc := ⟨.hbm, 35, rfl⟩
abbrev main_v7 : Ref sig .tc := ⟨.hbm, 36, rfl⟩
abbrev main_v8 : Ref sig .tc := ⟨.hbm, 37, rfl⟩
abbrev main_cst_0 : Ref sig .tc := ⟨.hbm, 38, rfl⟩
abbrev main_v9 : Ref sig .tc := ⟨.hbm, 39, rfl⟩
abbrev main_v10 : Ref sig .tc := ⟨.hbm, 40, rfl⟩
abbrev main_cst_1 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst_2 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_cst_3 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_cst_4 : Ref sig .tc := ⟨.hbm, 56, rfl⟩
abbrev main_v23 : Ref sig .tc := ⟨.hbm, 57, rfl⟩
abbrev main_cst_5 : Ref sig .tc := ⟨.hbm, 58, rfl⟩
abbrev main_v24 : Ref sig .tc := ⟨.hbm, 59, rfl⟩
abbrev main_v25 : Ref sig .tc := ⟨.hbm, 60, rfl⟩

abbrev nD : Nat := 1
abbrev τ : Topo := Topo.v7x

variable {F : FTy → Type} [FloatOps F]

class Facts₀ : Prop where
  reducesTo_S1024x512_S1024_d1 : S1024x512.ReducesTo [1] S1024
  h_S_ : 0 < S_.numel
  bcast_S1024_S1024x1_0 : S1024.BroadcastsInDim S1024x1 (![0] : Fin 1 → Fin S1024x1.rank)
  bcast_S1024x1_S1024x512_0_1 : S1024x1.BroadcastsInDim S1024x512 (![0, 1] : Fin 2 → Fin S1024x512.rank)
  bcast_S_S1024x1 : S_.BroadcastsInDim S1024x1 (![] : Fin 0 → Fin S1024x1.rank)
  shapeCasts_S1024x1_S1024x1x1 : S1024x1.ShapeCasts S1024x1x1
  bcast_S_S1024x1x1 : S_.BroadcastsInDim S1024x1x1 (![] : Fin 0 → Fin S1024x1x1.rank)
  bcast_S1_S1x1x1_2 : S1.BroadcastsInDim S1x1x1 (![2] : Fin 1 → Fin S1x1x1.rank)
  bcast_S1x1x1_S1024x1x1_0_1_2 : S1x1x1.BroadcastsInDim S1024x1x1 (![0, 1, 2] : Fin 3 → Fin S1024x1x1.rank)
  reducesTo_S1024x1x1_S1024x1_d2 : S1024x1x1.ReducesTo [2] S1024x1
  shapeCasts_S1024x1_S1024 : S1024x1.ShapeCasts S1024
  bcast_S_S1024 : S_.BroadcastsInDim S1024 (![] : Fin 0 → Fin S1024.rank)
  bcast_S_S1024x100000 : S_.BroadcastsInDim S1024x100000 (![] : Fin 0 → Fin S1024x100000.rank)
  reducesTo_S1024x100000_S1024_d1 : S1024x100000.ReducesTo [1] S1024
  reducesTo_S1024_S_d0 : S1024.ReducesTo [0] S_
  dot_S1024x512_S100000x512_S1024x100000_1_1_0_0_n_n_wf : DotDims.WF S1024x512 S100000x512 S1024x100000 [1] [1] [0] [0] [] []
  gather_S1024x100000_S1024x1x1_S1024x1_n_1_0_0_1_2_11_wf : GatherDims.WF S1024x100000 S1024x1x1 S1024x1 [] [1] [0] [1] [0] 2 ![1, 1]

variable [Facts₀]

def dot_S1024x512_S100000x512_S1024x100000_1_1_0_0_n_n : DotDims S1024x512 S100000x512 S1024x100000 where
  lhsContracting := [1]
  rhsContracting := [1]
  lhsNonContracting := [0]
  rhsNonContracting := [0]
  lhsBatch := []
  rhsBatch := []
  wf := dot_S1024x512_S100000x512_S1024x100000_1_1_0_0_n_n_wf
def gather_S1024x100000_S1024x1x1_S1024x1_n_1_0_0_1_2_11 : GatherDims S1024x100000 S1024x1x1 S1024x1 where
  offsetDims := []
  collapsedSliceDims := [1]
  operandBatchingDims := [0]
  startIndicesBatchingDims := [0]
  startIndexMap := [1]
  indexVectorDim := 2
  sliceSizes := ![1, 1]
  wf := gather_S1024x100000_S1024x1x1_S1024x1_n_1_0_0_1_2_11_wf

class Facts : Prop extends Facts₀ where

variable [Facts]
-- ==== Proof.KernelPieces.lean ====
/-
  What one run of the kernel body leaves behind, case by case, as values.

  The body keeps a running [512, 1] accumulator in a scratch buffer that survives from one grid point to the next.
  With `x` the point's [512, 512] block of rows, `w` its [2000, 512] block of classes and `acc` the accumulator as
  the point finds it, the body's one arithmetic step is `step x w acc` (the generated payload `k0_pay2`), and the
  reset value is the zero column (`k0_pay1`). Then:
  * first class block of a row block (case A): the accumulator is reset and ends at `step x w 0`;
  * a middle class block (case B): the accumulator ends at `step x w acc`;
  * last class block (case C): the accumulator ends at `step x w acc`, and the same column is copied to the output block.
  Each equation reads the run's covering stores back through the whole buffers; the loads of a buffer the same run
  stored to earlier read the stored value.
-/
import proofs.«407629_j39797166965247_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

theorem hz : (![0, 0] : Fin 2 → Nat) = fun _ => 0 := funext fun a => by fin_cases a <;> rfl

/-- Case B: the accumulator after the point is one step from the accumulator before it. -/
theorem sout_B (c : Dev nD) (i : grid0.Coords) (arg2 : Memref sig .tc .vmem S512x512 .f32) (harg2 : arg2.IsWhole) (arg3 : Memref sig .tc .vmem S2000x512 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : ¬cond0_1 i)
    (x0 : Vec F S512x512 .f32) (x1 : Vec F S2000x512 .f32) (xs0 : Vec F S512x1 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz]
  simp only [View.readAt_eq_ld, harg2.read_unread, harg3.read_unread, harg5.read_unread, View.ld_unit_zero (S := S512x512) hz, View.ld_unit_zero (S := S2000x512) hz, View.ld_unit_zero (S := S512x1) hz, View.readCov_unit_zero (S := S512x1) _ hz]

/-- Case A: the accumulator is reset first, so it ends one step from the zero column. -/
theorem sout_A (c : Dev nD) (i : grid0.Coords) (arg2 : Memref sig .tc .vmem S512x512 .f32) (harg2 : arg2.IsWhole) (arg3 : Memref sig .tc .vmem S2000x512 .f32) (harg3 : arg3.IsWhole) (arg4 : Memref sig .tc .vmem S512x1 .f32) (harg4 : arg4.IsWhole) (arg5 : Memref sig .tc .vmem S512x1 .f32) (harg5 : arg5.IsWhole) (hc0 : cond0_0 i) (hc1 : ¬cond0_1 i)
    (x0 : Vec F S512x512 .f32) (x1 : Vec F S2000x512 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S512x1) hz]
  simp only [View.readAt_eq_ld, harg2.read_unread, harg3.read_unread, harg5.read_unread, View.ld_unit_zero (S := S512x512) hz, View.ld_unit_zero (S := S2000x512) hz, View.ld_unit_zero (S := S512x1) hz, View.readCov_unit_zero (S := S512x1) _ hz]

/-- Case C: the accumulator, as in case B. -/
theorem sout_C (c : Dev nD) (i : grid0.Coords) (arg2 : Memref sig .tc .vmem S512x512 .f32) (harg2 : arg2.IsWhole) (arg3 : Memref sig .tc .vmem S2000x512 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 : Vec F S512x512 .f32) (x1 : Vec F S2000x512 .f32) (xs0 : Vec F S512x1 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread, View.ld_unit_zero (S := S512x512) hz, View.ld_unit_zero (S := S2000x512) hz, View.ld_unit_zero (S := S512x1) hz, View.readCov_unit_zero (S := S512x1) _ hz]

/-- Case C: the output block is the accumulator the point has just updated. -/
theorem out_C (c : Dev nD) (i : grid0.Coords) (arg2 : Memref sig .tc .vmem S512x512 .f32) (harg2 : arg2.IsWhole) (arg3 : Memref sig .tc .vmem S2000x512 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 : Vec F S512x512 .f32) (x1 : Vec F S2000x512 .f32) (xs0 : Vec F S512x1 .f32) :
    out0_C_2 c i arg2 harg2 arg3 harg3 arg4 harg4 arg5 harg5 hc0 hc1 x0 x1 xs0 = k0_pay2 x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread, View.ld_unit_zero (S := S512x512) hz, View.ld_unit_zero (S := S2000x512) hz, View.ld_unit_zero (S := S512x1) hz, View.readCov_unit_zero (S := S512x1) _ hz]

end Cert.KernelIdeal.Pieces
end
-- ==== Proof.Spec.lean ====
/-
  The mathematics of the additive-margin softmax loss, free of any program.

  For a row-normalised batch `xn : [1024, 512]` and class weights `W : [100000, 512]` over the extended reals:
  * `logit xn W n k = ∑ₑ xn (n, e) · W (k, e)` is row `n`'s score against class `k`;
  * `sexp z = exp (30 · z)` is the scaled exponential both programs apply to a score;
  * `sumAll xn W n = ∑ₖ sexp (logit xn W n k)` is the softmax denominator's full sum over the 100000 classes;
  * `tile x w r = ∑ⱼ sexp (∑ₑ x (r, e) · w (j, e))` is the part of that sum one [512, 512] block of rows takes
    from one [2000, 512] block of classes.
  The one law used: a sum over the 100000 classes is the sum over the 50 class blocks of the sums over each block's
  2000 classes (`sum_tiles`); addition on the extended reals is commutative and associative, so no finiteness is needed.
-/
import Idealize.ShloMosaic.PureOps.Ideal
import Idealize.ShloMosaic.PureOps.Ideal.Laws
import Idealize.ShloMosaic.Lib.ValueIdx

open scoped BigOperators

noncomputable section

namespace Cert.Proof.AdM

open Idealize.ShloMosaic Idealize.ShloMosaic.ValueIdx

/-- The scaled exponential `exp (30 · z)` (`30.0` is the f32 word `0x41F00000`). -/
def sexp (z : EReal) : EReal := Ideal.exp (Ideal.ofBits .f32 0x41F00000#32 * z)

/-- Row `n`'s score against class `k`: the inner product of row `n` of `xn` and row `k` of `W`. -/
def logit (xn : (⟨2, ![1024, 512]⟩ : Shape).Idx → EReal) (W : (⟨2, ![100000, 512]⟩ : Shape).Idx → EReal)
    (n : Fin 1024) (k : Fin 100000) : EReal :=
  ∑ e : Fin 512, xn (ix2 n e) * W (ix2 k e)

/-- The full sum of scaled exponentials of row `n`'s scores. -/
def sumAll (xn : (⟨2, ![1024, 512]⟩ : Shape).Idx → EReal) (W : (⟨2, ![100000, 512]⟩ : Shape).Idx → EReal)
    (n : Fin 1024) : EReal :=
  ∑ k : Fin 100000, sexp (logit xn W n k)

/-- What one block of 512 rows takes from one block of 2000 classes, at row `r` of the block. -/
def tile (x : (⟨2, ![512, 512]⟩ : Shape).Idx → EReal) (w : (⟨2, ![2000, 512]⟩ : Shape).Idx → EReal) (r : Fin 512) : EReal :=
  ∑ j : Fin 2000, sexp (∑ e : Fin 512, x (ix2 r e) * w (ix2 j e))

/-- Class `2000 · c + j`: class `j` of class block `c`. -/
def cls (c : Fin 50) (j : Fin 2000) : Fin 100000 := ⟨2000 * c.val + j.val, by have := c.isLt; have := j.isLt; omega⟩

/-- A sum over the 100000 classes, block by block. -/
theorem sum_tiles (f : Fin 100000 → EReal) : ∑ c : Fin 50, ∑ j : Fin 2000, f (cls c j) = ∑ k : Fin 100000, f k := by
  rw [← Fintype.sum_prod_type' (f := fun c j => f (cls c j))]
  refine Fintype.sum_equiv (finProdFinEquiv.trans (finCongr (by norm_num : 50 * 2000 = 100000))) _ _ fun p => ?_
  refine congrArg f (Fin.ext ?_)
  show 2000 * p.1.val + p.2.val = p.2.val + 2000 * p.1.val
  omega

/-- Row `512 · i + r`: row `r` of row block `i`. -/
def rowOf (i : Fin 2) (r : Fin 512) : Fin 1024 := ⟨512 * i.val + r.val, by have := i.isLt; have := r.isLt; omega⟩

/-- Every row is a row of one of the two row blocks. -/
theorem rowOf_div_mod (n : Fin 1024) :
    rowOf ⟨n.val / 512, by have := n.isLt; omega⟩ ⟨n.val % 512, Nat.mod_lt _ (by norm_num)⟩ = n :=
  Fin.ext (by show 512 * (n.val / 512) + n.val % 512 = n.val; omega)

end Cert.Proof.AdM

end
-- ==== Proof.KernelBody.lean ====
/-
  The body's arithmetic step, read at an entry, at the extended reals.

  With `x` a [512, 512] block of rows, `w` a [2000, 512] block of classes and `acc` a [512, 1] column, the step is
  `acc + rowsum (exp (30 · (x · wᵀ)))`: at row `r` it adds to `acc r` the sum over the block's 2000 classes `j` of
  `exp (30 · ∑ₑ x (r, e) · w (j, e))`, which is `tile x w r`. The casts to bf16 are the identity on extended reals;
  the matrix product into a zero accumulator is the plain sum of products over the contracted axis; the lane
  reduction from zero is the plain sum over the class axis; the reset value is the zero column.
-/
import proofs.«407629_j39797166965247_1_alg».proof.Proof.Gen.KernelIdeal.Skeleton
import proofs.«407629_j39797166965247_1_alg».proof.Proof.Spec
import Idealize.ShloMosaic.Lib.Pipeline.Value
import Idealize.ShloMosaic.Lib.ValueIdx
import Idealize.ShloMosaic.PureOps.Ideal.Laws

set_option maxRecDepth 16384
noncomputable section
open Idealize.ShloMosaic Idealize.ShloMosaic.ValueIdx
open scoped BigOperators

namespace Cert.KernelIdeal.Body
open Cert.KernelIdeal Cert.KernelIdeal.Gen Cert.Proof.AdM

theorem pay1_apply (y : S512x1.Idx) : k0_pay1 (F := Ideal) y = 0 := by
  unfold k0_pay1
  simp only [shapeCast_self]
  show Ideal.ofBits .f32 0x00000000#32 = 0
  exact Ideal.ofBits_zero_f32

theorem lanesum (src : FVec Ideal S512x2000 .f32) (hφ : FKind.Formats .f32) (hacc : (0x00000000#32 : BitVec 32) = 0x00000000#32) (r : Fin 512) :
    multiReduction .add [1] S512 src 0x00000000#32 reduces_S512x2000_S512 hφ hacc (ix1 r) = ∑ j : Fin 2000, src (ix2 r j) := by
  refine (Ideal.multiReduction_add_single src 0x00000000#32 reduces_S512x2000_S512 hφ hacc (ix1 r)).trans ?_
  refine Finset.sum_congr rfl fun j _ => congrArg src ?_
  funext a
  match a with
  | ⟨0, _⟩ => rfl
  | ⟨1, _⟩ => rfl

theorem lhs_0 (i : S512x2000.Idx) (q : dot_S512x512_S2000x512_S512x2000_1_1_0_0_n_n.contr.Idx) : (dot_S512x512_S2000x512_S512x2000_1_1_0_0_n_n.lhsIdx i q 0).val = (i 0).val := by
  unfold DotDims.lhsIdx
  rw [dif_neg (show ¬(0 : Fin S512x512.rank) ∈ dot_S512x512_S2000x512_S512x2000_1_1_0_0_n_n.lhsBatch by decide), dif_pos (show (0 : Fin S512x512.rank) ∈ dot_S512x512_S2000x512_S512x2000_1_1_0_0_n_n.lhsNonContracting by decide)]
  rfl
theorem lhs_1 (i : S512x2000.Idx) (q : dot_S512x512_S2000x512_S512x2000_1_1_0_0_n_n.contr.Idx) : (dot_S512x512_S2000x512_S512x2000_1_1_0_0_n_n.lhsIdx i q 1).val = (q ⟨0, by decide⟩).val :=
  dot_S512x512_S2000x512_S512x2000_1_1_0_0_n_n.lhsIdx_val_of_single rfl i q
theorem rhs_0 (i : S512x2000.Idx) (q : dot_S512x512_S2000x512_S512x2000_1_1_0_0_n_n.contr.Idx) : (dot_S512x512_S2000x512_S512x2000_1_1_0_0_n_n.rhsIdx i q 0).val = (i 1).val := by
  unfold DotDims.rhsIdx
  rw [dif_neg (show ¬(0 : Fin S2000x512.rank) ∈ dot_S512x512_S2000x512_S512x2000_1_1_0_0_n_n.rhsBatch by decide), dif_pos (show (0 : Fin S2000x512.rank) ∈ dot_S512x512_S2000x512_S512x2000_1_1_0_0_n_n.rhsNonContracting by decide)]
  rfl
theorem rhs_1 (i : S512x2000.Idx) (q : dot_S512x512_S2000x512_S512x2000_1_1_0_0_n_n.contr.Idx) : (dot_S512x512_S2000x512_S512x2000_1_1_0_0_n_n.rhsIdx i q 1).val = (q ⟨0, by decide⟩).val :=
  dot_S512x512_S2000x512_S512x2000_1_1_0_0_n_n.rhsIdx_val_of_single rfl i q

theorem mm_apply (x : FVec Ideal S512x512 .bf16) (w : FVec Ideal S2000x512 .bf16) (r : Fin 512) (j : Fin 2000) :
    matmul dot_S512x512_S2000x512_S512x2000_1_1_0_0_n_n none x w (constant S512x2000 .f32 0x00000000#32) (ix2 r j) = ∑ e : Fin 512, x (ix2 r e) * w (ix2 j e) := by
  simp only [matmul]
  rw [Ideal.matmul_constant_zero_apply, ← Equiv.sum_comp (contrEquiv1 dot_S512x512_S2000x512_S512x2000_1_1_0_0_n_n 512 rfl rfl).symm]
  refine Finset.sum_congr rfl fun k _ => ?_
  have hk := contrEquiv1_symm_val dot_S512x512_S2000x512_S512x2000_1_1_0_0_n_n 512 rfl rfl k
  have el : dot_S512x512_S2000x512_S512x2000_1_1_0_0_n_n.lhsIdx (ix2 r j) ((contrEquiv1 dot_S512x512_S2000x512_S512x2000_1_1_0_0_n_n 512 rfl rfl).symm k) = ix2 r k := funext fun a => Fin.ext (by
    match a with
    | ⟨0, _⟩ => exact lhs_0 _ _
    | ⟨1, _⟩ => exact (lhs_1 _ _).trans hk)
  have er : dot_S512x512_S2000x512_S512x2000_1_1_0_0_n_n.rhsIdx (ix2 r j) ((contrEquiv1 dot_S512x512_S2000x512_S512x2000_1_1_0_0_n_n 512 rfl rfl).symm k) = ix2 j k := funext fun a => Fin.ext (by
    match a with
    | ⟨0, _⟩ => exact rhs_0 _ _
    | ⟨1, _⟩ => exact (rhs_1 _ _).trans hk)
  rw [el, er]

theorem pay2_apply (x : Vec Ideal S512x512 .f32) (w : Vec Ideal S2000x512 .f32) (acc : Vec Ideal S512x1 .f32) (r : Fin 512) :
    k0_pay2 (F := Ideal) x w acc (ix2 r (0 : Fin 1)) = acc (ix2 r (0 : Fin 1)) + tile x w r := by
  unfold k0_pay2
  simp only [shapeCast_self]
  rw [addf_apply]
  congr 1
  refine (shapeCast_apply _ shapeCasts_S512_S512x1 (ix2 r (0 : Fin 1)) (ix1 r) (by rw [Shape.rowMajor_val_two, Shape.rowMajor_val_one]; show r.val = r.val * 1 + 0; omega)).trans ?_
  refine (lanesum _ _ _ r).trans ?_
  unfold tile
  refine Finset.sum_congr rfl fun j _ => ?_
  exact congrArg sexp (mm_apply (truncf .bf16 x bitsLt_bf16_f32) (truncf .bf16 w bitsLt_bf16_f32) r j)

end Cert.KernelIdeal.Body
end
-- ==== Proof.KernelAcc.lean ====
/-
  The accumulation across the grid, and the array the region leaves.

  The grid has 2 × 50 points; point `t` works on row block `t / 50` (512 rows) and class block `t % 50` (2000
  classes). The accumulator after point `t`, at row `r` of the block, is the sum of the tile sums of the points of
  the same row block up to `t`: it is reset at the first class block (`t % 50 = 0`) and one tile sum is added per
  point (induction on the point). At the last class block (`t % 50 = 49`) the accumulator, by then the sum of all 50
  tile sums, is copied to the output block and written back to rows `512 · (t / 50) …` of the [1024, 1] result.
  A block of `xn` read through its window is rows `512 · (t / 50) + r` of `xn`, a block of `W` classes
  `2000 · (t % 50) + j` of `W`, so the 50 tile sums are the class-block sums of `Spec.sum_tiles` and add up to the
  full sum over the 100000 classes. The two write-backs cover the result array, which therefore ends holding, at row
  `n`, `sumAll xn W n`.
-/
import proofs.«407629_j39797166965247_1_alg».proof.Proof.Gen.KernelIdeal.Frame
import proofs.«407629_j39797166965247_1_alg».proof.Proof.KernelPieces
import proofs.«407629_j39797166965247_1_alg».proof.Proof.KernelBody
import proofs.«407629_j39797166965247_1_alg».proof.Proof.Spec
import Idealize.ShloMosaic.Lib.Pipeline.Value

set_option maxRecDepth 16384
noncomputable section
open Idealize.ShloMosaic Idealize.ShloMosaic.TcCoe Idealize.SL.Sem Idealize.ShloMosaic.ValueIdx
open Idealize.ShloMosaic.Pipeline (Dat)
open scoped BigOperators

namespace Cert.KernelIdeal.Acc
open Cert.KernelIdeal Cert.KernelIdeal.Gen Cert.Proof.AdM

variable (m : (ℓ : Loc nD τ sig) → Buf (Elt Ideal) ℓ)

abbrev xblk (c : Dev nD) (t : Fin cfg0.N) : Vec Ideal S512x512 .f32 := iblk m c 0 t
abbrev wblk (c : Dev nD) (t : Fin cfg0.N) : Vec Ideal S2000x512 .f32 := iblk m c 1 t

theorem acc_A (c : Dev nD) (t : Fin cfg0.N) (h0 : t.val % 50 = 0) (h1 : ¬t.val % 50 = 49) (r : Fin 512) :
    (outsAt0 m c t.val t.isLt).2 (ix2 r (0 : Fin 1)) = tile (xblk m c t) (wblk m c t) r := by
  rw [outsAt0_A m c t h0 h1]
  dsimp only
  refine (congrFun (Pieces.sout_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (xblk m c t) (wblk m c t)) (ix2 r (0 : Fin 1))).trans ?_
  refine (Body.pay2_apply (xblk m c t) (wblk m c t) (k0_pay1 (F := Ideal)) r).trans ?_
  rw [Body.pay1_apply, zero_add]

theorem acc_B (c : Dev nD) (t : Fin cfg0.N) (h0 : ¬t.val % 50 = 0) (h1 : ¬t.val % 50 = 49) (r : Fin 512) :
    (outsAt0 m c t.val t.isLt).2 (ix2 r (0 : Fin 1))
      = (outsAt0 m c (t.val - 1) (Nat.lt_of_le_of_lt (Nat.sub_le _ _) t.isLt)).2 (ix2 r (0 : Fin 1)) + tile (xblk m c t) (wblk m c t) r := by
  rw [outsAt0_B m c t h0 h1]
  dsimp only
  refine (congrFun (Pieces.sout_B (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (xblk m c t) (wblk m c t) (outsAt0 m c (t.val - 1) (Nat.lt_of_le_of_lt (Nat.sub_le _ _) t.isLt)).2) (ix2 r (0 : Fin 1))).trans ?_
  exact Body.pay2_apply (xblk m c t) (wblk m c t) _ r

theorem acc_C (c : Dev nD) (t : Fin cfg0.N) (h0 : ¬t.val % 50 = 0) (h1 : t.val % 50 = 49) (r : Fin 512) :
    (outsAt0 m c t.val t.isLt).2 (ix2 r (0 : Fin 1))
      = (outsAt0 m c (t.val - 1) (Nat.lt_of_le_of_lt (Nat.sub_le _ _) t.isLt)).2 (ix2 r (0 : Fin 1)) + tile (xblk m c t) (wblk m c t) r := by
  rw [outsAt0_C m c t h0 h1]
  dsimp only
  refine (congrFun (Pieces.sout_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (xblk m c t) (wblk m c t) (outsAt0 m c (t.val - 1) (Nat.lt_of_le_of_lt (Nat.sub_le _ _) t.isLt)).2) (ix2 r (0 : Fin 1))).trans ?_
  exact Body.pay2_apply (xblk m c t) (wblk m c t) _ r

theorem out_C (c : Dev nD) (t : Fin cfg0.N) (h0 : ¬t.val % 50 = 0) (h1 : t.val % 50 = 49) :
    (outsAt0 m c t.val t.isLt).1 = (outsAt0 m c t.val t.isLt).2 := by
  rw [outsAt0_C m c t h0 h1]
  dsimp only
  exact (Pieces.out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (xblk m c t) (wblk m c t) (outsAt0 m c (t.val - 1) (Nat.lt_of_le_of_lt (Nat.sub_le _ _) t.isLt)).2).trans
    (Pieces.sout_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (xblk m c t) (wblk m c t) (outsAt0 m c (t.val - 1) (Nat.lt_of_le_of_lt (Nat.sub_le _ _) t.isLt)).2).symm

/-- The tile sum of point `s` (zero beyond the grid). -/
def T (c : Dev nD) (s : ℕ) (r : Fin 512) : EReal :=
  if h : s < cfg0.N then tile (xblk m c ⟨s, h⟩) (wblk m c ⟨s, h⟩) r else 0

theorem T_eq (c : Dev nD) (t : Fin cfg0.N) (r : Fin 512) : T m c t.val r = tile (xblk m c t) (wblk m c t) r := by
  unfold T; rw [dif_pos t.isLt]

theorem acc_eq (c : Dev nD) : ∀ (n : ℕ) (h : n < cfg0.N) (r : Fin 512),
    (outsAt0 m c n h).2 (ix2 r (0 : Fin 1)) = ∑ s ∈ Finset.Ico (50 * (n / 50)) (n + 1), T m c s r
  | 0, h, r => by
    rw [show (50 * (0 / 50)) = 0 from rfl, Nat.Ico_succ_singleton, Finset.sum_singleton]
    exact (acc_A m c ⟨0, h⟩ rfl (by show ¬(0 % 50 = 49); decide) r).trans (T_eq m c ⟨0, h⟩ r).symm
  | k + 1, h, r => by
    have hN : cfg0.N = 100 := N_0
    by_cases h0 : (k + 1) % 50 = 0
    · have h1 : ¬(k + 1) % 50 = 49 := by omega
      have e : 50 * ((k + 1) / 50) = k + 1 := by omega
      rw [e, Nat.Ico_succ_singleton, Finset.sum_singleton]
      exact (acc_A m c ⟨k + 1, h⟩ h0 h1 r).trans (T_eq m c ⟨k + 1, h⟩ r).symm
    · have e : 50 * ((k + 1) / 50) = 50 * (k / 50) := by omega
      have hle : 50 * (k / 50) ≤ k + 1 := by omega
      rw [e, Finset.sum_Ico_succ_top hle, ← acc_eq c k (Nat.lt_of_succ_lt h) r, show T m c (k + 1) r = tile (xblk m c ⟨k + 1, h⟩) (wblk m c ⟨k + 1, h⟩) r from T_eq m c ⟨k + 1, h⟩ r]
      by_cases h1 : (k + 1) % 50 = 49
      · exact acc_C m c ⟨k + 1, h⟩ h0 h1 r
      · exact acc_B m c ⟨k + 1, h⟩ h0 h1 r

/-- The normalised batch and the class weights as the region finds them. -/
abbrev xnArr (c : Dev nD) : Vec Ideal S1024x512 .f32 := V m c main_v2
abbrev wArr (c : Dev nD) : Vec Ideal S100000x512 .f32 := V m c main_arg2

theorem idx_facts : ∀ t : Fin cfg0.N, win0_0.index t (0 : Fin 2) = t.val / 50 ∧ win0_0.index t (1 : Fin 2) = 0
    ∧ win0_1.index t (0 : Fin 2) = t.val % 50 ∧ win0_1.index t (1 : Fin 2) = 0
    ∧ win0_2.index t (0 : Fin 2) = t.val / 50 ∧ win0_2.index t (1 : Fin 2) = 0 :=
  (by decide +kernel : ∀ t : Fin grid0.N, _)

theorem lt_two (t : Fin cfg0.N) : t.val / 50 < 2 := by have := t.isLt; have : cfg0.N = 100 := N_0; omega

theorem xblk_apply (c : Dev nD) (t : Fin cfg0.N) (r e : Fin 512) :
    xblk m c t (ix2 r e) = xnArr m c (ix2 (rowOf ⟨t.val / 50, lt_two t⟩ r) e) := by
  obtain ⟨e0, e1, -, -, -, -⟩ := idx_facts t
  show iblk m c 0 t (ix2 r e) = _
  unfold iblk
  rw [View.read_apply]
  show V m c main_v2 _ = V m c main_v2 _
  congr 1
  funext a
  apply Fin.ext
  match a with
  | ⟨0, _⟩ => show win0_0.index t (0 : Fin 2) * 512 + 1 * r.val = 512 * (t.val / 50) + r.val; rw [e0]; omega
  | ⟨1, _⟩ => show win0_0.index t (1 : Fin 2) * 512 + 1 * e.val = e.val; rw [e1]; omega

theorem wblk_apply (c : Dev nD) (t : Fin cfg0.N) (j : Fin 2000) (e : Fin 512) :
    wblk m c t (ix2 j e) = wArr m c (ix2 (cls ⟨t.val % 50, Nat.mod_lt _ (by norm_num)⟩ j) e) := by
  obtain ⟨-, -, e2, e3, -, -⟩ := idx_facts t
  show iblk m c 1 t (ix2 j e) = _
  unfold iblk
  rw [View.read_apply]
  show V m c main_arg2 _ = V m c main_arg2 _
  congr 1
  funext a
  apply Fin.ext
  match a with
  | ⟨0, _⟩ => show win0_1.index t (0 : Fin 2) * 2000 + 1 * j.val = 2000 * (t.val % 50) + j.val; rw [e2]; omega
  | ⟨1, _⟩ => show win0_1.index t (1 : Fin 2) * 512 + 1 * e.val = e.val; rw [e3]; omega

theorem tile_blocks (c : Dev nD) (s : Fin cfg0.N) (r : Fin 512) :
    tile (xblk m c s) (wblk m c s) r
      = ∑ j : Fin 2000, sexp (logit (xnArr m c) (wArr m c) (rowOf ⟨s.val / 50, lt_two s⟩ r) (cls ⟨s.val % 50, Nat.mod_lt _ (by norm_num)⟩ j)) := by
  unfold tile logit
  refine Finset.sum_congr rfl fun j _ => congrArg sexp (Finset.sum_congr rfl fun e _ => ?_)
  rw [xblk_apply, wblk_apply]

theorem tile_blocks' (c : Dev nD) (s : Fin cfg0.N) (i : Fin 2) (cc : Fin 50) (hi : s.val / 50 = i.val) (hc : s.val % 50 = cc.val)
    (r : Fin 512) :
    tile (xblk m c s) (wblk m c s) r = ∑ j : Fin 2000, sexp (logit (xnArr m c) (wArr m c) (rowOf i r) (cls cc j)) := by
  obtain rfl : i = ⟨s.val / 50, lt_two s⟩ := Fin.ext hi.symm
  obtain rfl : cc = ⟨s.val % 50, Nat.mod_lt _ (by norm_num)⟩ := Fin.ext hc.symm
  exact tile_blocks m c s r

theorem flush_val (c : Dev nD) (t : Fin cfg0.N) (h49 : t.val % 50 = 49) (r : Fin 512) :
    (outsAt0 m c t.val t.isLt).2 (ix2 r (0 : Fin 1)) = sumAll (xnArr m c) (wArr m c) (rowOf ⟨t.val / 50, lt_two t⟩ r) := by
  have hN : cfg0.N = 100 := N_0
  have ht := t.isLt
  rw [acc_eq m c t.val t.isLt r, Finset.sum_Ico_eq_sum_range, show t.val + 1 - 50 * (t.val / 50) = 50 by omega, Finset.sum_range]
  unfold sumAll
  rw [← sum_tiles]
  refine Finset.sum_congr rfl fun cc _ => ?_
  have hcc := cc.isLt
  have hs : 50 * (t.val / 50) + cc.val < cfg0.N := by omega
  rw [show T m c (50 * (t.val / 50) + cc.val) r = _ from T_eq m c ⟨50 * (t.val / 50) + cc.val, hs⟩ r]
  exact tile_blocks' m c ⟨50 * (t.val / 50) + cc.val, hs⟩ ⟨t.val / 50, lt_two t⟩ cc (by show (50 * (t.val / 50) + cc.val) / 50 = t.val / 50; omega)
    (by show (50 * (t.val / 50) + cc.val) % 50 = cc.val; omega) r

theorem flush_val' (c : Dev nD) (t : Fin cfg0.N) (h49 : t.val % 50 = 49) (y : S512x1.Idx) :
    (outsAt0 m c t.val t.isLt).2 y = sumAll (xnArr m c) (wArr m c) (rowOf ⟨t.val / 50, lt_two t⟩ ⟨(y 0).val, idx2_lt0 y⟩) := by
  have hy : y = ix2 (⟨(y 0).val, idx2_lt0 y⟩ : Fin 512) (0 : Fin 1) := by
    funext a
    match a with
    | ⟨0, _⟩ => rfl
    | ⟨1, _⟩ => exact Fin.ext (by have h1 : (y 1).val < 1 := (y 1).isLt; show (y 1).val = 0; omega)
  exact (congrArg (outsAt0 m c t.val t.isLt).2 hy).trans (flush_val m c t h49 _)

theorem flush_block (c : Dev nD) (t : Fin cfg0.N) (h49 : t.val % 50 = 49) :
    (outsAt0 m c t.val t.isLt).2
      = fun y : S512x1.Idx => sumAll (xnArr m c) (wArr m c) (rowOf ⟨t.val / 50, lt_two t⟩ ⟨(y 0).val, idx2_lt0 y⟩) :=
  funext (flush_val' m c t h49)

/-- The output array the region leaves: at row `n` the full sum over the classes. -/
abbrev G (c : Dev nD) : Vec Ideal S1024x1 .f32 := fun y => sumAll (xnArr m c) (wArr m c) ⟨(y 0).val, idx2_lt0 y⟩

theorem flushed_eq (c : Dev nD) (t : Fin cfg0.N) (hf : (cfg0.win 2).flush t = true) :
    (dats m 0 c).flushed 2 t = ((cfg0.win 2).blk t).view.read (Elt Ideal) (G m c) := by
  have h49 := (flush0_2 t).mp hf
  have h0 : ¬t.val % 50 = 0 := by omega
  obtain ⟨-, -, -, -, e4, e5⟩ := idx_facts t
  show (cfg0.win 2).cut (grid0.coords t) ((dats m 0 c).after 2 t) = _
  rw [after0_2, out_C m c t h0 h49, flush_block m c t h49]
  funext y
  rw [View.read_apply]
  simp only [cast_eq]
  refine congrArg (sumAll (xnArr m c) (wArr m c)) (Fin.ext ?_)
  show 512 * (t.val / 50) + (y 0).val = win0_2.index t (0 : Fin 2) * 512 + 1 * (y 0).val
  rw [e4]; omega

theorem mem_blk (t : Fin cfg0.N) (i : S1024x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v3).slice (win0_2.rect t)).set ↔ _
  rw [View.set_slice_whole, Rect.mem_set_unit]
  exact Iff.rfl

theorem final (c : Dev nD) : (dats m 0 c).arrAt 2 cfg0.N = G m c :=
  (dats m 0 c).arrAt_eq_of_cover 2 (G m c) (fun t hf => flushed_eq m c t hf) fun i => by
    have hN : cfg0.N = 100 := N_0
    have hi0 : (i 0).val < 1024 := (i 0).isLt
    have hi1 : (i 1).val < 1 := (i 1).isLt
    have ht : 50 * ((i 0).val / 512) + 49 < cfg0.N := by omega
    obtain ⟨-, -, -, -, e4, e5⟩ := idx_facts ⟨50 * ((i 0).val / 512) + 49, ht⟩
    refine ⟨⟨50 * ((i 0).val / 512) + 49, ht⟩, (flush0_2 _).mpr (by show (50 * ((i 0).val / 512) + 49) % 50 = 49; omega), ?_⟩
    rw [mem_blk]
    intro a
    match a with
    | ⟨0, _⟩ =>
      show win0_2.index ⟨50 * ((i 0).val / 512) + 49, ht⟩ (0 : Fin 2) * 512 ≤ (i 0).val ∧ (i 0).val < win0_2.index ⟨50 * ((i 0).val / 512) + 49, ht⟩ (0 : Fin 2) * 512 + 512
      rw [e4]; show (50 * ((i 0).val / 512) + 49) / 50 * 512 ≤ (i 0).val ∧ (i 0).val < (50 * ((i 0).val / 512) + 49) / 50 * 512 + 512; omega
    | ⟨1, _⟩ =>
      show win0_2.index ⟨50 * ((i 0).val / 512) + 49, ht⟩ (1 : Fin 2) * 1 ≤ (i 1).val ∧ (i 1).val < win0_2.index ⟨50 * ((i 0).val / 512) + 49, ht⟩ (1 : Fin 2) * 1 + 1
      rw [e5]; omega

end Cert.KernelIdeal.Acc
end
-- ==== Proof.KernelHost.lean ====
/-
  The host side of the kernel's program: what surrounds the one region.

  Before the region the host normalises the batch (`normalize`: each row of `x` divided by the square root of the sum
  of its squares); that array is the region's first input. After the region the host reshapes the [1024, 1] result to
  a vector of full sums, gathers the label rows of `W`, takes the label scores `wfy` as row-wise inner products
  (`kerWfy`), and evaluates the loss (`lossTail`). The lines after the region read the region's arrays as the region
  leaves them: its two inputs unchanged, its output at whatever the accumulation left there.
-/
import proofs.«407629_j39797166965247_1_alg».proof.Proof.Gen.KernelIdeal.Frame
import Idealize.ShloMosaic.Lib.Pipeline.Value
import Idealize.ShloMosaic.Lib.StableHlo.Run
import Idealize.ShloMosaic.Lib.Tactic
import Idealize.ShloMosaic.Lib.ValueIdx
import Idealize.ShloMosaic.PureOps.Ideal.Laws

set_option maxRecDepth 16384
noncomputable section
open Idealize.ShloMosaic Idealize.ShloMosaic.TcCoe Idealize.SL.Sem Idealize.ShloMosaic.ValueIdx
open Idealize.ShloMosaic.Pipeline (Dat)

namespace Cert.KernelIdeal.HostSide
open Cert.KernelIdeal Cert.KernelIdeal.Gen

variable (m : (ℓ : Loc nD τ sig) → Buf (Elt Ideal) ℓ)

/-- Each row divided by its Euclidean norm. -/
def normalize (x : FVec Ideal S1024x512 .f32) : FVec Ideal S1024x512 .f32 :=
  Host.divf x (broadcastInDim S1024x512 ![0, 1] bcast_S1024x1_S1024x512_0_1 (Host.sqrt (broadcastInDim S1024x1 ![0] bcast_S1024_S1024x1_0
    (Host.reduceAdd (mulf x x) (constant (F := Ideal) S_ .f32 0x00000000#32) reducesTo_S1024x512_S1024_d1 h_S_))))

theorem V_main_v2 (c : Dev nD) : (V m c main_v2 : S1024x512.Idx → EReal) = normalize (m ((c : Thread nD τ).loc main_arg0)) := by
  dsimp only [Gen.V, Gen.V0]
  simp only [hostOps0, hostOps0_1, List.flatten_cons, List.flatten_nil, List.append_nil, List.cons_append, List.nil_append]
  after_results
  rfl

/-- The label column the row gather reads: a negative label is wrapped by the number of classes. -/
def labIdx (lab : IVec S1024 32) : IVec S1024x1 32 :=
  broadcastInDim S1024x1 ![0] bcast_S1024_S1024x1_0
    (select (cmpi .slt lab (broadcastInDim S1024 ![] bcast_S_S1024 (constantI S_ 32 0#32)))
      (addi lab (broadcastInDim S1024 ![] bcast_S_S1024 (constantI S_ 32 100000#32))) lab)

/-- The label scores as the kernel's program computes them: row `n` of `xn` against the gathered row `W[label n]`. -/
def kerWfy (xn : FVec Ideal S1024x512 .f32) (lab : IVec S1024 32) (W : FVec Ideal S100000x512 .f32) : FVec Ideal S1024 .f32 :=
  Host.reduceAdd (mulf xn (Host.gather gather_S100000x512_S1024x1_S1024x512_1_0_n_n_0_1_1512 W (labIdx lab)))
    (constant (F := Ideal) S_ .f32 0x00000000#32) reducesTo_S1024x512_S1024_d1 h_S_

/-- The loss from the label scores `wfy` and the full sums `sumall`:
    `−mean (30 · (wfy − 0.4) − log (exp (30 · (wfy − 0.4)) + sumall − exp (30 · wfy)))`. -/
def lossTail (wfy sumall : FVec Ideal S1024 .f32) : FVec Ideal S_ .f32 :=
  Host.negf (Host.divf (Host.reduceAdd
    (subf (mulf (broadcastInDim S1024 ![] bcast_S_S1024 (constant (F := Ideal) S_ .f32 0x41F00000#32))
        (subf wfy (broadcastInDim S1024 ![] bcast_S_S1024 (constant (F := Ideal) S_ .f32 0x3ECCCCCD#32))))
      (Host.log (subf (addf (Host.exp (mulf (broadcastInDim S1024 ![] bcast_S_S1024 (constant (F := Ideal) S_ .f32 0x41F00000#32))
        (subf wfy (broadcastInDim S1024 ![] bcast_S_S1024 (constant (F := Ideal) S_ .f32 0x3ECCCCCD#32))))) sumall)
        (Host.exp (mulf (broadcastInDim S1024 ![] bcast_S_S1024 (constant (F := Ideal) S_ .f32 0x41F00000#32)) wfy)))))
    (constant (F := Ideal) S_ .f32 0x00000000#32) reducesTo_S1024_S_d0 h_S_) (constant (F := Ideal) S_ .f32 0x44800000#32))

set_option maxHeartbeats 4000000 in
theorem tail_eq (c : Dev nD) (Gout : Vec Ideal S1024x1 .f32) (hG : (dats m 0 c).arrAt 2 cfg0.N = Gout) :
    Pipeline.afterTail₀ cfgs (dats m) 0 (V0 m) [hostOps1] c main_v28
      = lossTail (kerWfy (V m c main_v2) (m ((c : Thread nD τ).loc main_arg1)) (m ((c : Thread nD τ).loc main_arg2)))
          (shapeCast S1024 Gout shapeCasts_S1024x1_S1024) := by
  unfold Pipeline.afterTail₀
  show StableHlo.after hostOps1 _ (Proc.devRef .tc main_v28) = _
  after_results_simp
  have e0 : Pipeline.withArrays (cfgs 0).spec c (V0 m c) (fun w => (dats m 0 c).arrAt w (cfgs 0).N) (Proc.devRef .tc main_v2) = V m c main_v2 :=
    (Pipeline.withArrays_arr spec0 launch0.win.arr_inj c _ _ 0).trans (((dats m 0 c).arrAt_in 0 rfl _).trans (A_eq m c 0))
  have e1 : Pipeline.withArrays (cfgs 0).spec c (V0 m c) (fun w => (dats m 0 c).arrAt w (cfgs 0).N) (Proc.devRef .tc main_arg2) = m ((c : Thread nD τ).loc main_arg2) :=
    (Pipeline.withArrays_arr spec0 launch0.win.arr_inj c _ _ 1).trans (((dats m 0 c).arrAt_in 1 rfl _).trans ((A_eq m c 1).trans (V_main_arg2 m c)))
  have e2 : Pipeline.withArrays (cfgs 0).spec c (V0 m c) (fun w => (dats m 0 c).arrAt w (cfgs 0).N) (Proc.devRef .tc main_arg1) = m ((c : Thread nD τ).loc main_arg1) :=
    (Pipeline.withArrays_of_ne _ c (V0 m c) _ main_arg1 (by exact (by decide : ∀ w, Pipeline.arrRef spec0 w ≠ main_arg1))).trans (V_main_arg1 m c)
  have e3 : Pipeline.withArrays (cfgs 0).spec c (V0 m c) (fun w => (dats m 0 c).arrAt w (cfgs 0).N) (Proc.devRef .tc main_v3) = Gout :=
    (Pipeline.withArrays_arr spec0 launch0.win.arr_inj c _ _ 2).trans hG
  rw [e0, e1, e2, e3]
  rfl

end Cert.KernelIdeal.HostSide
end
-- ==== Proof.KernelRun.lean ====
/-
  The kernel's program, run: every weakly fair execution ends with the loss at
  `lossTail (kerWfy xn labels W) (the full sums of xn against W)`, where `xn` is the row-normalised batch, and with
  the three argument arrays unchanged. The region's output array is read off the accumulation (it holds the full sums),
  the lines after the region are read as pure operations of the arrays the region leaves.
-/
import proofs.«407629_j39797166965247_1_alg».proof.Proof.KernelAcc
import proofs.«407629_j39797166965247_1_alg».proof.Proof.KernelHost

set_option maxRecDepth 16384
noncomputable section
open Idealize.ShloMosaic Idealize.ShloMosaic.TcCoe Idealize.SL.Sem Idealize.ShloMosaic.ValueIdx
open Idealize.ShloMosaic.Pipeline (Dat)

namespace Cert.KernelIdeal.KRun
open Cert.KernelIdeal Cert.KernelIdeal.Gen Cert.Proof.AdM

variable (m : (ℓ : Loc nD τ sig) → Buf (Elt Ideal) ℓ) (ρ : Dev nD → PrngReg)

/-- The [1024, 1] column of full sums. -/
def sumVec (xn : FVec Ideal S1024x512 .f32) (W : FVec Ideal S100000x512 .f32) : FVec Ideal S1024x1 .f32 :=
  fun y => sumAll xn W ⟨(y 0).val, idx2_lt0 y⟩

theorem G_eq (c : Dev nD) :
    Acc.G m c = sumVec (HostSide.normalize (m ((c : Thread nD τ).loc main_arg0))) (m ((c : Thread nD τ).loc main_arg2)) := by
  show (fun y : S1024x1.Idx => sumAll (V m c main_v2) (V m c main_arg2) ⟨(y 0).val, idx2_lt0 y⟩) = _
  rw [HostSide.V_main_v2 m c, V_main_arg2 m c]
  rfl

theorem run : θ_run defs (onTc (τ := τ) (main (F := Ideal))) ⟨m, fun _ => 0, ρ⟩ (fun r => ∀ c : Dev nD,
      r.2.mem ((c : Thread nD τ).loc main_v28)
        = HostSide.lossTail (HostSide.kerWfy (HostSide.normalize (m ((c : Thread nD τ).loc main_arg0))) (m ((c : Thread nD τ).loc main_arg1)) (m ((c : Thread nD τ).loc main_arg2)))
            (shapeCast S1024 (sumVec (HostSide.normalize (m ((c : Thread nD τ).loc main_arg0))) (m ((c : Thread nD τ).loc main_arg2))) shapeCasts_S1024x1_S1024)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c => ⟨((h c).2 main_v28 (Pipeline.mem_restRefs_of main_v28 (by decide) (by decide))).trans
      ((HostSide.tail_eq m c (Acc.G m c) (Acc.final m c)).trans (by rw [HostSide.V_main_v2 m c, G_eq m c])),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).1 1).trans (((dats m 0 c).arrAt_in 1 rfl _).trans ((A_eq m c 1).trans (V_main_arg2 m c)))⟩) (run_main m ρ)

end Cert.KernelIdeal.KRun
end
-- ==== Proof.LibGatherScatter.lean ====
/-
  The three index operations of one graph-convolution layer, READ AT AN INDEX, over generic extents: `N` rows (nodes),
  `E` start indices (edges), rows of width `D`.

  * the row gather `[N, D] → [E, D]` at a column `[E, 1]` of start indices (`gathD`): result `(e, q)` is the
    operand at `(row (idx (e, 0)), q)`;
  * the entry gather `[N] → [E]` at the same column (`gath1`): result `e` is the operand at `row (idx (e, 0))`;
    `row` is ONE function of the index word for both: the word read signed and clamped into `[0, N − 1]`;
  * the accumulating scatter `[E, D] → [N, D]` (`scatD`) and `[E] → [N]` (`scat1`) at a column of scatter indices:
    update `(e, q')` lands on `(i, q)` exactly when `q' = q` and the index word of `e`, read signed and NOT clamped,
    is `i`; hence at the ideal instance the scatter's value at `(i, q)` is the operand's plus the sum, over the edges
    `e` whose word is `i`, of the updates `(e, q)`.

  The dimension-number records are written out here with their well-formedness as an argument, so that a program's own
  record of the same fields is one of these by unfolding.
-/
import Idealize.ShloMosaic.PureOps.Ideal
import Idealize.ShloMosaic.Lib.ValueIdx

open scoped BigOperators

namespace Cert.Proof.GS

open Idealize.ShloMosaic Idealize.ShloMosaic.ValueIdx

/-! ## The records -/

/-- Row gather: operand `[N, D]`, start indices `[E, 1]`, result `[E, D]`; axis 0 collapsed and start-indexed, axis 1
    an offset axis of full width. -/
abbrev gathD (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Entry gather: operand `[N]`, start indices `[E, 1]`, result `[E]`; the one axis collapsed and start-indexed. -/
abbrev gath1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Row scatter: operand `[N, D]`, scatter indices `[E, 1]`, updates `[E, D]`; axis 0 inserted and scatter-indexed,
    axis 1 the window. -/
abbrev scatD (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Entry scatter: operand `[N]`, scatter indices `[E, 1]`, updates `[E]`; no window. -/
abbrev scat1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## The gathers at an index -/

/-- The row a gather reads for an index word: the word as a signed integer, clamped into `[0, N − 1]` (a negative
    word reads row 0, a word past the end the last row). -/
def row {N : Nat} (hN : 0 < N) {w : Nat} (b : BitVec w) : Fin N := ⟨min b.toInt.toNat (N - 1), by omega⟩

/-- A word whose signed value is a row number is sent to that row: the clamp leaves it alone. -/
theorem row_of_toInt {N : Nat} (hN : 0 < N) {w : Nat} (b : BitVec w) (i : Fin N) (h : b.toInt = (i.val : Int)) :
    row hN b = i := by
  refine Fin.ext ?_
  show min b.toInt.toNat (N - 1) = i.val
  rw [h, Int.toNat_natCast]
  have := i.isLt
  omega

variable {α : Type}

/-- THE ROW GATHER AT `(e, q)`: the operand at row `row (idx (e, 0))`, column `q`. On axis 0 (collapsed, no batching)
    the operand coordinate is the clamped start; on axis 1 (not start-indexed) it is the offset coordinate `q`. -/
theorem gather_gathD_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (gathD N E D wf) x idx (ix2 e q) = x (ix2 (row hN (idx (ix2 e (0 : Fin 1)))) q) := by
  unfold Host.gather
  congr 1
  funext a
  refine Fin.ext ?_
  match a with
  | ⟨0, _⟩ =>
    show (gathD N E D wf).start (ix2 e q) idx 0 + (gathD N E D wf).batchCoord (ix2 e q) 0
      + (gathD N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (gathD N E D wf).startIndexMap from List.mem_singleton.mpr rfl)]
    show min (idx _).toInt.toNat (N - 1) = min (idx (ix2 e (0 : Fin 1))).toInt.toNat (N - 1)
    congr 3
    congr 1
    funext b
    refine Fin.ext ?_
    match b with
    | ⟨0, _⟩ => rfl
    | ⟨1, _⟩ => rfl
  | ⟨1, _⟩ =>
    show (gathD N E D wf).start (ix2 e q) idx 1 + (gathD N E D wf).batchCoord (ix2 e q) 1
      + (gathD N E D wf).offCoord (ix2 e q) 1 = q.val
    rw [GatherDims.batchCoord_eq_zero _ _ _ List.not_mem_nil]
    have h1 : (1 : Fin 2) ∉ (gathD N E D wf).startIndexMap :=
      show (1 : Fin 2) ∉ ([0] : List (Fin 2)) by decide
    have hk : (1 : Fin 2) ∈ (gathD N E D wf).sKept :=
      (GatherDims.mem_sKept _ _).mpr ⟨show (1 : Fin 2) ∉ ([0] : List (Fin 2)) by decide, List.not_mem_nil⟩
    unfold GatherDims.start GatherDims.offCoord
    rw [dif_neg h1, dif_pos hk]
    simp only [Nat.zero_add]
    rfl

/-- THE ENTRY GATHER AT `e`: the operand at `row (idx (e, 0))`, the same row the row gather reads for that edge. -/
theorem gather_gath1_apply {N E w : Nat} (hN : 0 < N)
    (wf : GatherDims.WF ⟨1, ![N]⟩ ⟨2, ![E, 1]⟩ ⟨1, ![E]⟩ [] [0] [] [0] [] 1 ![1])
    (v : (⟨1, ![N]⟩ : Shape).Idx → α) (idx : IVec ⟨2, ![E, 1]⟩ w) (e : Fin E) :
    Host.gather (gath1 N E wf) v idx (ix1 e) = v (ix1 (row hN (idx (ix2 e (0 : Fin 1))))) := by
  unfold Host.gather
  congr 1
  funext a
  obtain rfl : a = 0 := Subsingleton.elim _ _
  refine Fin.ext ?_
  show (gath1 N E wf).start (ix1 e) idx 0 + (gath1 N E wf).batchCoord (ix1 e) 0 + (gath1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ (gath1 N E wf).startIndexMap from List.mem_singleton.mpr rfl)]
  show min (idx _).toInt.toNat (N - 1) = min (idx (ix2 e (0 : Fin 1))).toInt.toNat (N - 1)
  congr 3
  congr 1
  funext b
  refine Fin.ext ?_
  match b with
  | ⟨0, _⟩ => rfl
  | ⟨1, _⟩ => rfl

/-! ## Where a scattered update lands -/

/-- For any scatter: an update lands on operand index `r` exactly when, on every axis, its signed start plus its
    window coordinate is `r`'s coordinate (if the sum leaves the operand on some axis the update is dropped, and no
    `r` has that coordinate). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro hh a
      have := congrFun (Option.some.inj hh) a
      rw [← this]
      exact (Int.toNat_of_nonneg (h a).1).symm
    · intro hall
      congr 1
      funext a
      refine Fin.ext ?_
      show (d.start j idx a + (d.window j a : Int)).toNat = (r a).val
      rw [hall a]; exact Int.toNat_natCast _
  · next h =>
    constructor
    · intro hh; cases hh
    · intro hall
      exfalso; apply h; intro a
      rw [hall a]
      exact ⟨Int.natCast_nonneg _, by exact_mod_cast (r a).isLt⟩

section ScatD
variable {N E D w : Nat} (wf : ScatterDims.WF ⟨2, ![N, D]⟩ ⟨2, ![E, 1]⟩ ⟨2, ![E, D]⟩ [1] [0] [0] 1)
  (idx : IVec ⟨2, ![E, 1]⟩ w) (e : Fin E) (q' : Fin D)

/-- Row scatter, axis 0: the start is the edge's index word read signed … -/
theorem scatD_start0 : (scatD N E D wf).start (ix2 e q') idx 0 = (idx (ix2 e (0 : Fin 1))).toInt := by
  unfold ScatterDims.start
  rw [dif_pos (show (0 : Fin 2) ∈ (scatD N E D wf).scatterDimsToOperandDims from List.mem_singleton.mpr rfl)]
  congr 2
  funext b
  refine Fin.ext ?_
  match b with
  | ⟨0, _⟩ => rfl
  | ⟨1, _⟩ => rfl

/-- … and there is no window coordinate (the axis is inserted). -/
theorem scatD_window0 : (scatD N E D wf).window (ix2 e q') 0 = 0 := by
  unfold ScatterDims.window
  rw [dif_neg]
  intro h
  have : (0 : Fin 2) ∉ ([0] : List (Fin 2)) := by
    simpa [ScatterDims.sKept, Shape.kept, List.mem_filter] using h
  exact this (List.mem_singleton.mpr rfl)

/-- Row scatter, axis 1: not scatter-indexed, start 0 … -/
theorem scatD_start1 : (scatD N E D wf).start (ix2 e q') idx 1 = 0 := by
  unfold ScatterDims.start
  rw [dif_neg (show (1 : Fin 2) ∉ ([0] : List (Fin 2)) by decide)]

/-- … and the window coordinate is the update's column. -/
theorem scatD_window1 : (scatD N E D wf).window (ix2 e q') 1 = q'.val := by
  unfold ScatterDims.window
  have hk : (1 : Fin 2) ∈ (scatD N E D wf).sKept := by
    simp [ScatterDims.sKept, Shape.kept, List.mem_filter]
  rw [dif_pos hk]
  rfl

/-- WHERE A ROW UPDATE LANDS: update `(e, q')` lands on `(i, q)` iff `q' = q` and the edge's index word, read signed,
    is `i`. -/
theorem scatD_resultIdx?_iff (i : Fin N) (q : Fin D) :
    (scatD N E D wf).resultIdx? (ix2 e q') idx = some (ix2 i q)
      ↔ q' = q ∧ (idx (ix2 e (0 : Fin 1))).toInt = (i.val : Int) := by
  rw [resultIdx?_eq_some_iff]
  constructor
  · intro h
    have h0 : (scatD N E D wf).start (ix2 e q') idx 0 + ((scatD N E D wf).window (ix2 e q') 0 : Int) = (i.val : Int) :=
      h 0
    have h1 : (scatD N E D wf).start (ix2 e q') idx 1 + ((scatD N E D wf).window (ix2 e q') 1 : Int) = (q.val : Int) :=
      h 1
    rw [scatD_start0, scatD_window0] at h0
    rw [scatD_start1, scatD_window1] at h1
    refine ⟨Fin.ext ?_, ?_⟩
    · have : ((q'.val : Int)) = (q.val : Int) := by simpa using h1
      exact_mod_cast this
    · simpa using h0
  · rintro ⟨rfl, ht⟩ a
    match a with
    | ⟨0, _⟩ =>
      show (scatD N E D wf).start (ix2 e q') idx 0 + ((scatD N E D wf).window (ix2 e q') 0 : Int) = (i.val : Int)
      rw [scatD_start0, scatD_window0, ht]; simp
    | ⟨1, _⟩ =>
      show (scatD N E D wf).start (ix2 e q') idx 1 + ((scatD N E D wf).window (ix2 e q') 1 : Int) = (q'.val : Int)
      rw [scatD_start1, scatD_window1]; simp

end ScatD

section Scat1
variable {N E w : Nat} (wf : ScatterDims.WF ⟨1, ![N]⟩ ⟨2, ![E, 1]⟩ ⟨1, ![E]⟩ [] [0] [0] 1)
  (idx : IVec ⟨2, ![E, 1]⟩ w) (e : Fin E)

/-- Entry scatter: the start is the edge's index word read signed … -/
theorem scat1_start0 : (scat1 N E wf).start (ix1 e) idx 0 = (idx (ix2 e (0 : Fin 1))).toInt := by
  unfold ScatterDims.start
  rw [dif_pos (show (0 : Fin 1) ∈ (scat1 N E wf).scatterDimsToOperandDims from List.mem_singleton.mpr rfl)]
  congr 2
  funext b
  refine Fin.ext ?_
  match b with
  | ⟨0, _⟩ => rfl
  | ⟨1, _⟩ => rfl

/-- … and there is no window. -/
theorem scat1_window0 : (scat1 N E wf).window (ix1 e) 0 = 0 := by
  unfold ScatterDims.window
  rw [dif_neg]
  intro h
  have : (0 : Fin 1) ∉ ([0] : List (Fin 1)) := by
    simpa [ScatterDims.sKept, Shape.kept, List.mem_filter] using h
  exact this (List.mem_singleton.mpr rfl)

/-- WHERE AN ENTRY UPDATE LANDS: update `e` lands on `i` iff the edge's index word, read signed, is `i`. -/
theorem scat1_resultIdx?_iff (i : Fin N) :
    (scat1 N E wf).resultIdx? (ix1 e) idx = some (ix1 i) ↔ (idx (ix2 e (0 : Fin 1))).toInt = (i.val : Int) := by
  rw [resultIdx?_eq_some_iff]
  constructor
  · intro h
    have h0 : (scat1 N E wf).start (ix1 e) idx 0 + ((scat1 N E wf).window (ix1 e) 0 : Int) = (i.val : Int) := h 0
    rw [scat1_start0, scat1_window0] at h0
    simpa using h0
  · intro ht a
    obtain rfl : a = 0 := Subsingleton.elim _ _
    show (scat1 N E wf).start (ix1 e) idx 0 + ((scat1 N E wf).window (ix1 e) 0 : Int) = (i.val : Int)
    rw [scat1_start0, scat1_window0, ht]; simp

end Scat1

/-! ## The accumulating scatter at an index, at the ideal instance -/

section ScatterAddAt
open Finset

/-- THE ROW SCATTER-ADD AT `(i, q)`: the operand's entry plus the sum, over the edges `e` whose index word read signed
    is `i`, of the update entries `(e, q)`. The updates that land on `(i, q)` are the `(e, q')` with `q' = q` and word
    `i`: the sum over the pairs collapses to the sum over the edges. -/
theorem scatterAdd_scatD_apply {N E D w : Nat} (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32)
    (i : Fin N) (q : Fin D) :
    Host.scatterAdd (scatD N E D wf) x idx upd (ix2 i q)
      = x (ix2 i q) + ∑ e ∈ univ.filter (fun e : Fin E => (idx (ix2 e (0 : Fin 1))).toInt = (i.val : Int)), upd (ix2 e q) := by
  classical
  show x (ix2 i q) + ∑ j ∈ univ.filter (fun j => (scatD N E D wf).resultIdx? j idx = some (ix2 i q)), upd j = _
  congr 1
  rw [Finset.sum_filter, sum_idx2, Finset.sum_filter]
  refine Finset.sum_congr rfl fun e _ => ?_
  simp only [scatD_resultIdx?_iff]
  by_cases ht : (idx (ix2 e (0 : Fin 1))).toInt = (i.val : Int)
  · simp [ht]
  · simp [ht]

/-- THE ENTRY SCATTER-ADD AT `i`: the operand's entry plus the sum, over the edges whose index word read signed is
    `i`, of their updates. -/
theorem scatterAdd_scat1_apply {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (i : Fin N) :
    Host.scatterAdd (scat1 N E wf) x idx upd (ix1 i)
      = x (ix1 i) + ∑ e ∈ univ.filter (fun e : Fin E => (idx (ix2 e (0 : Fin 1))).toInt = (i.val : Int)), upd (ix1 e) := by
  classical
  show x (ix1 i) + ∑ j ∈ univ.filter (fun j => (scat1 N E wf).resultIdx? j idx = some (ix1 i)), upd j = _
  congr 1
  refine Finset.sum_bij' (fun j _ => (j 0 : Fin E)) (fun e _ => ix1 e) ?_ ?_ ?_ ?_ ?_
  · intro j hj
    have h2 := (Finset.mem_filter.mp hj).2
    rw [eq_ix1 j] at h2
    exact Finset.mem_filter.mpr ⟨Finset.mem_univ _, (scat1_resultIdx?_iff wf idx _ i).mp h2⟩
  · intro e he
    exact Finset.mem_filter.mpr ⟨Finset.mem_univ _, (scat1_resultIdx?_iff wf idx e i).mpr (Finset.mem_filter.mp he).2⟩
  · intro j _; exact (eq_ix1 j).symm
  · intro e _; rfl
  · intro j _; exact congrArg upd (eq_ix1 j)

end ScatterAddAt

end Cert.Proof.GS
-- ==== Proof.KernelScore.lean ====
/-
  The label scores of the kernel's program, read at a row.

  The row gather reads, for row `n`, row `label n` of `W` (a label in `[0, 100000)` is neither wrapped nor clamped),
  and the host's row sum from zero of the elementwise products is the plain sum: the label score of row `n` is
  `logit xn W n (label n)`.
-/
import proofs.«407629_j39797166965247_1_alg».proof.Proof.KernelHost
import proofs.«407629_j39797166965247_1_alg».proof.Proof.LibGatherScatter
import proofs.«407629_j39797166965247_1_alg».proof.Proof.Spec
import Idealize.ShloMosaic.Lib.Affine

set_option maxRecDepth 16384
noncomputable section
open Idealize.ShloMosaic Idealize.ShloMosaic.TcCoe Idealize.SL.Sem Idealize.ShloMosaic.ValueIdx
open scoped BigOperators

namespace Cert.KernelIdeal.HostSide
open Cert.KernelIdeal Cert.KernelIdeal.Gen Cert.Proof.AdM Cert.Proof.GS

theorem labIdx_apply (lab : IVec S1024 32) (n : Fin 1024) (h0 : 0 ≤ (lab (ix1 n)).toInt) :
    labIdx lab (ix2 n (0 : Fin 1)) = lab (ix1 n) := by
  unfold labIdx
  rw [broadcastInDim_apply _ bcast_S1024_S1024x1_0 _ (ix2 n (0 : Fin 1)) (ix1 n) (fun a => by
    match a with
    | ⟨0, _⟩ => rfl)]
  rw [select_apply]
  have hc : cmpi .slt lab (broadcastInDim S1024 ![] bcast_S_S1024 (constantI S_ 32 0#32)) (ix1 n) = 0#1 := by
    show IntOp.cmpi .slt (lab (ix1 n)) 0#32 = 0#1
    apply eq_zero_of_ne_one
    rw [IntOp.cmpi_slt]
    simp
    exact h0
  rw [hc, select_zero]

theorem gather_rows (W : FVec Ideal S100000x512 .f32) (idx : IVec S1024x1 32) (n : Fin 1024) (e : Fin 512) :
    Host.gather gather_S100000x512_S1024x1_S1024x512_1_0_n_n_0_1_1512 W idx (ix2 n e) = W (ix2 (row (N := 100000) (by norm_num) (idx (ix2 n (0 : Fin 1)))) e) :=
  gather_gathD_apply (N := 100000) (E := 1024) (D := 512) (by norm_num) gather_S100000x512_S1024x1_S1024x512_1_0_n_n_0_1_1512.wf W idx n e

theorem kerWfy_apply (xn : FVec Ideal S1024x512 .f32) (lab : IVec S1024 32) (W : FVec Ideal S100000x512 .f32)
    (n : Fin 1024) (kk : Fin 100000) (hl : (lab (ix1 n)).toInt = (kk.val : Int)) :
    kerWfy xn lab W (ix1 n) = logit xn W n kk := by
  unfold kerWfy
  simp only [Host.reduceAdd, Ideal.hostReduceAdd_def]
  rw [Ideal.hostReduceAdd_single reducesTo_S1024x512_S1024_d1 (by decide)]
  rw [show (constant (F := Ideal) S_ .f32 0x00000000#32) (Shape.Idx.first h_S_) = 0 from Ideal.ofBits_zero_f32, zero_add]
  unfold logit
  refine Finset.sum_congr rfl fun (e : Fin 512) _ => ?_
  refine (congrArg (mulf xn (Host.gather gather_S100000x512_S1024x1_S1024x512_1_0_n_n_0_1_1512 W (labIdx lab))) (show _ = ix2 n e from funext fun a => by
    match a with
    | ⟨0, _⟩ => rfl
    | ⟨1, _⟩ => rfl)).trans ?_
  rw [mulf_apply, gather_rows, labIdx_apply lab n (by rw [hl]; exact Int.natCast_nonneg _), row_of_toInt _ _ kk hl]

end Cert.KernelIdeal.HostSide
end
-- ==== Proof.LibTakeAlong.lean ====
/-
  `take_along_axis` along the last axis, READ AT AN INDEX, over generic extents: operand `[R, N]`, one start index per
  row `[R, 1, 1]`, result `[R, 1]`. Axis 0 is a batching axis (row `n` of the result reads row `n` of the operand),
  axis 1 is collapsed and start-indexed: result `(n, 0)` is the operand at `(n, row (idx (n, 0, 0)))`, where `row` is
  the index word read signed and clamped into `[0, N − 1]` (the same function the row gather uses).
-/
import Idealize.ShloMosaic.PureOps.Ideal
import Idealize.ShloMosaic.Lib.ValueIdx
import proofs.«407629_j39797166965247_1_alg».proof.Proof.LibGatherScatter

namespace Cert.Proof.GS

open Idealize.ShloMosaic Idealize.ShloMosaic.ValueIdx

/-- Take-along-axis gather: operand `[R, N]`, start indices `[R, 1, 1]`, result `[R, 1]`; axis 0 batching on both
    sides, axis 1 collapsed and start-indexed, the index vector on the start indices' last axis. -/
abbrev gathTA (R N : Nat) (wf : GatherDims.WF ⟨2, ![R, N]⟩ ⟨3, ![R, 1, 1]⟩ ⟨2, ![R, 1]⟩ [] [1] [0] [1] [0] 2 ![1, 1]) :
    GatherDims ⟨2, ![R, N]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

variable {α : Type}

/-- THE TAKE-ALONG-AXIS GATHER AT `(n, 0)`: the operand at row `n`, column `row (idx (n, 0, 0))`. On axis 0 (batching)
    the operand coordinate is the result's row; on axis 1 (collapsed, start-indexed) it is the clamped start. -/
theorem gather_gathTA_apply {R N w : Nat} (hN : 0 < N)
    (wf : GatherDims.WF ⟨2, ![R, N]⟩ ⟨3, ![R, 1, 1]⟩ ⟨2, ![R, 1]⟩ [] [1] [0] [1] [0] 2 ![1, 1])
    (x : (⟨2, ![R, N]⟩ : Shape).Idx → α) (idx : IVec ⟨3, ![R, 1, 1]⟩ w) (n : Fin R) :
    Host.gather (gathTA R N wf) x idx (ix2 n (0 : Fin 1))
      = x (ix2 n (row hN (idx (ix3 n (0 : Fin 1) (0 : Fin 1))))) := by
  unfold Host.gather
  congr 1
  funext a
  refine Fin.ext ?_
  match a with
  | ⟨0, _⟩ =>
    show (gathTA R N wf).start (ix2 n (0 : Fin 1)) idx 0 + (gathTA R N wf).batchCoord (ix2 n (0 : Fin 1)) 0
      + (gathTA R N wf).offCoord (ix2 n (0 : Fin 1)) 0 = n.val
    rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 2) ∈ (gathTA R N wf).operandBatchingDims from List.mem_singleton.mpr rfl)]
    simp only [Nat.zero_add, Nat.add_zero]
    rfl
  | ⟨1, _⟩ =>
    show (gathTA R N wf).start (ix2 n (0 : Fin 1)) idx 1 + (gathTA R N wf).batchCoord (ix2 n (0 : Fin 1)) 1
      + (gathTA R N wf).offCoord (ix2 n (0 : Fin 1)) 1 = _
    rw [GatherDims.batchCoord_eq_zero _ _ _ (show (1 : Fin 2) ∉ ([0] : List (Fin 2)) by decide),
      GatherDims.offCoord_eq_zero _ _ _ (fun h => ((GatherDims.mem_sKept _ _).mp h).1 (List.mem_singleton.mpr rfl))]
    unfold GatherDims.start
    rw [dif_pos (show (1 : Fin 2) ∈ (gathTA R N wf).startIndexMap from List.mem_singleton.mpr rfl)]
    show min (idx _).toInt.toNat (N - 1) = min (idx (ix3 n (0 : Fin 1) (0 : Fin 1))).toInt.toNat (N - 1)
    congr 3
    congr 1
    funext b
    refine Fin.ext ?_
    match b with
    | ⟨0, _⟩ => rfl
    | ⟨1, _⟩ => rfl
    | ⟨2, _⟩ => rfl

end Cert.Proof.GS
-- ==== Proof.RefValue.lean ====
/-
  The reference program, read: its result is `lossTail (refWfy xn labels W) (refSum xn W)` of the row-normalised batch
  `xn` (the generated run's term, folded into named pieces), and at the extended reals
  * the score matrix at `(n, k)` is `logit xn W n k` (a `dot_general` over the embedding axis is the plain sum of
    products);
  * the full sum of row `n` is `sumAll xn W n` (the host's row sum from zero of the scaled exponentials);
  * the label score of row `n`, for a label that is a class number, is `logit xn W n (label n)`: the label is not
    wrapped, the range test of `take_along_axis` passes (its and-reduction runs over an axis of one element), so the
    fill value is not selected, and the gather along the class axis reads column `label n` of row `n`.
-/
import proofs.«407629_j39797166965247_1_alg».proof.Proof.Gen.ReferenceIdeal.Run
import proofs.«407629_j39797166965247_1_alg».proof.Proof.Gen.ReferenceIdeal.Read
import proofs.«407629_j39797166965247_1_alg».proof.Proof.LibTakeAlong
import proofs.«407629_j39797166965247_1_alg».proof.Proof.Spec
import Idealize.ShloMosaic.Lib.Affine
import Idealize.ShloMosaic.Lib.Pipeline.Value
import Idealize.ShloMosaic.PureOps.Reduce

set_option maxRecDepth 16384
noncomputable section
open Idealize.ShloMosaic Idealize.ShloMosaic.TcCoe Idealize.SL.Sem Idealize.ShloMosaic.ValueIdx
open scoped BigOperators

namespace Cert.ReferenceIdeal.RefValue
open Cert.ReferenceIdeal Cert.ReferenceIdeal.Gen Cert.Proof.AdM Cert.Proof.GS

/-- Each row divided by its Euclidean norm. -/
def normalize (x : FVec Ideal S1024x512 .f32) : FVec Ideal S1024x512 .f32 :=
  Host.divf x (broadcastInDim S1024x512 ![0, 1] bcast_S1024x1_S1024x512_0_1 (Host.sqrt (broadcastInDim S1024x1 ![0] bcast_S1024_S1024x1_0
    (Host.reduceAdd (mulf x x) (constant (F := Ideal) S_ .f32 0x00000000#32) reducesTo_S1024x512_S1024_d1 h_S_))))

/-- All scores: row `n` against class `k`. -/
def scores (xn : FVec Ideal S1024x512 .f32) (W : FVec Ideal S100000x512 .f32) : FVec Ideal S1024x100000 .f32 :=
  Host.dotGeneral dot_S1024x512_S100000x512_S1024x100000_1_1_0_0_n_n none xn W

/-- The label column as `take_along_axis` reads it: a negative label wrapped by the number of classes. -/
def labIdx3 (lab : IVec S1024 32) : IVec S1024x1x1 32 :=
  shapeCast _ (select (cmpi .slt (broadcastInDim S1024x1 ![0] bcast_S1024_S1024x1_0 lab) (broadcastInDim S1024x1 ![] bcast_S_S1024x1 (constantI S_ 32 0#32)))
    (addi (broadcastInDim S1024x1 ![0] bcast_S1024_S1024x1_0 lab) (broadcastInDim S1024x1 ![] bcast_S_S1024x1 (constantI S_ 32 100000#32)))
    (broadcastInDim S1024x1 ![0] bcast_S1024_S1024x1_0 lab)) shapeCasts_S1024x1_S1024x1x1

/-- Whether the wrapped label is a class number, `0 ≤ · ≤ 99999`. -/
def inRange (lab : IVec S1024 32) : IVec S1024x1 1 :=
  Host.reduce IntOp.andi (andi (cmpi .sge (labIdx3 lab) (broadcastInDim S1024x1x1 ![] bcast_S_S1024x1x1 (constantI S_ 32 0#32)))
    (cmpi .sle (labIdx3 lab) (broadcastInDim S1024x1x1 ![0, 1, 2] bcast_S1x1x1_S1024x1x1_0_1_2 (broadcastInDim S1x1x1 ![2] bcast_S1_S1x1x1_2 (constantI S1 32 99999#32)))))
    (constantI S_ 1 1#1) reducesTo_S1024x1x1_S1024x1_d2 h_S_

/-- The label scores as the reference computes them: the score matrix read at the label column, a fill value where
    the label is no class number. -/
def refWfy (xn : FVec Ideal S1024x512 .f32) (lab : IVec S1024 32) (W : FVec Ideal S100000x512 .f32) : FVec Ideal S1024 .f32 :=
  shapeCast _ (select (inRange lab) (Host.gather gather_S1024x100000_S1024x1x1_S1024x1_n_1_0_0_1_2_11 (scores xn W) (labIdx3 lab))
    (broadcastInDim S1024x1 ![] bcast_S_S1024x1 (constant (F := Ideal) S_ .f32 0x7FC00000#32))) shapeCasts_S1024x1_S1024

/-- The full sums as the reference computes them. -/
def refSum (xn : FVec Ideal S1024x512 .f32) (W : FVec Ideal S100000x512 .f32) : FVec Ideal S1024 .f32 :=
  Host.reduceAdd (Host.exp (mulf (broadcastInDim S1024x100000 ![] bcast_S_S1024x100000 (constant (F := Ideal) S_ .f32 0x41F00000#32)) (scores xn W)))
    (constant (F := Ideal) S_ .f32 0x00000000#32) reducesTo_S1024x100000_S1024_d1 h_S_

/-- The loss from the label scores and the full sums. -/
def lossTail (wfy sumall : FVec Ideal S1024 .f32) : FVec Ideal S_ .f32 :=
  Host.negf (Host.divf (Host.reduceAdd
    (subf (mulf (broadcastInDim S1024 ![] bcast_S_S1024 (constant (F := Ideal) S_ .f32 0x41F00000#32))
        (subf wfy (broadcastInDim S1024 ![] bcast_S_S1024 (constant (F := Ideal) S_ .f32 0x3ECCCCCD#32))))
      (Host.log (subf (addf (Host.exp (mulf (broadcastInDim S1024 ![] bcast_S_S1024 (constant (F := Ideal) S_ .f32 0x41F00000#32))
        (subf wfy (broadcastInDim S1024 ![] bcast_S_S1024 (constant (F := Ideal) S_ .f32 0x3ECCCCCD#32))))) sumall)
        (Host.exp (mulf (broadcastInDim S1024 ![] bcast_S_S1024 (constant (F := Ideal) S_ .f32 0x41F00000#32)) wfy)))))
    (constant (F := Ideal) S_ .f32 0x00000000#32) reducesTo_S1024_S_d0 h_S_) (constant (F := Ideal) S_ .f32 0x44800000#32))

theorem res_eq (m : (ℓ : Loc nD τ sig) → Buf (Elt Ideal) ℓ) (c : Dev nD) :
    Cert.ReferenceIdeal.Value.res_main_v25 m c
      = lossTail (refWfy (normalize (m ((c.tc : Thread nD τ).loc main_arg0))) (m ((c.tc : Thread nD τ).loc main_arg1)) (m ((c.tc : Thread nD τ).loc main_arg2)))
          (refSum (normalize (m ((c.tc : Thread nD τ).loc main_arg0))) (m ((c.tc : Thread nD τ).loc main_arg2))) := by
  unfold Cert.ReferenceIdeal.Value.res_main_v25
  rfl

theorem scores_apply (xn : FVec Ideal S1024x512 .f32) (W : FVec Ideal S100000x512 .f32) (n : Fin 1024) (k : Fin 100000) :
    scores xn W (ix2 n k) = logit xn W n k := by
  unfold scores logit
  simp only [Host.dotGeneral]
  rw [Ideal.dotGeneral_apply, ← Equiv.sum_comp (contrEquiv1 dot_S1024x512_S100000x512_S1024x100000_1_1_0_0_n_n 512 rfl rfl).symm]
  refine Finset.sum_congr rfl fun e _ => ?_
  have hk := contrEquiv1_symm_val dot_S1024x512_S100000x512_S1024x100000_1_1_0_0_n_n 512 rfl rfl e
  have el : dot_S1024x512_S100000x512_S1024x100000_1_1_0_0_n_n.lhsIdx (ix2 n k) ((contrEquiv1 dot_S1024x512_S100000x512_S1024x100000_1_1_0_0_n_n 512 rfl rfl).symm e) = ix2 n e := funext fun a => Fin.ext (by
    match a with
    | ⟨0, _⟩ => exact Read.lhs_main_v3_0 _ _
    | ⟨1, _⟩ => exact (Read.lhs_main_v3_1 _ _).trans hk)
  have er : dot_S1024x512_S100000x512_S1024x100000_1_1_0_0_n_n.rhsIdx (ix2 n k) ((contrEquiv1 dot_S1024x512_S100000x512_S1024x100000_1_1_0_0_n_n 512 rfl rfl).symm e) = ix2 k e := funext fun a => Fin.ext (by
    match a with
    | ⟨0, _⟩ => exact Read.rhs_main_v3_0 _ _
    | ⟨1, _⟩ => exact (Read.rhs_main_v3_1 _ _).trans hk)
  rw [el, er]

theorem refSum_apply (xn : FVec Ideal S1024x512 .f32) (W : FVec Ideal S100000x512 .f32) (n : Fin 1024) :
    refSum xn W (ix1 n) = sumAll xn W n := by
  unfold refSum
  simp only [Host.reduceAdd, Ideal.hostReduceAdd_def]
  rw [Ideal.hostReduceAdd_single reducesTo_S1024x100000_S1024_d1 (by decide)]
  rw [show (constant (F := Ideal) S_ .f32 0x00000000#32) (Shape.Idx.first h_S_) = 0 from Ideal.ofBits_zero_f32, zero_add]
  unfold sumAll
  refine Finset.sum_congr rfl fun (k : Fin 100000) _ => ?_
  refine (congrArg (Host.exp (mulf (broadcastInDim S1024x100000 ![] bcast_S_S1024x100000 (constant (F := Ideal) S_ .f32 0x41F00000#32)) (scores xn W)))
    (show _ = ix2 n k from funext fun a => by
      match a with
      | ⟨0, _⟩ => rfl
      | ⟨1, _⟩ => rfl)).trans ?_
  show Ideal.exp (Ideal.ofBits .f32 0x41F00000#32 * scores xn W (ix2 n k)) = _
  rw [scores_apply]
  rfl

instance andi_comm1 : Std.Commutative (IntOp.andi (w := 1)) := ⟨by decide⟩
instance andi_assoc1 : Std.Associative (IntOp.andi (w := 1)) := ⟨by decide⟩

theorem bcast_lab (lab : IVec S1024 32) (n : Fin 1024) :
    broadcastInDim S1024x1 ![0] bcast_S1024_S1024x1_0 lab (ix2 n (0 : Fin 1)) = lab (ix1 n) :=
  broadcastInDim_apply _ bcast_S1024_S1024x1_0 lab (ix2 n (0 : Fin 1)) (ix1 n) (fun a => by
    match a with
    | ⟨0, _⟩ => rfl)

theorem labIdx3_apply (lab : IVec S1024 32) (n : Fin 1024) (h0 : 0 ≤ (lab (ix1 n)).toInt) :
    labIdx3 lab (ix3 n (0 : Fin 1) (0 : Fin 1)) = lab (ix1 n) := by
  unfold labIdx3
  rw [shapeCast_apply _ shapeCasts_S1024x1_S1024x1x1 (ix3 n (0 : Fin 1) (0 : Fin 1)) (ix2 n (0 : Fin 1))
    (by rw [Shape.rowMajor_val_two, Shape.rowMajor_val_three]; show n.val * 1 + 0 = (n.val * 1 + 0) * 1 + 0; omega)]
  rw [select_apply]
  have hc : cmpi .slt (broadcastInDim S1024x1 ![0] bcast_S1024_S1024x1_0 lab) (broadcastInDim S1024x1 ![] bcast_S_S1024x1 (constantI S_ 32 0#32)) (ix2 n (0 : Fin 1)) = 0#1 := by
    show IntOp.cmpi .slt (broadcastInDim S1024x1 ![0] bcast_S1024_S1024x1_0 lab (ix2 n (0 : Fin 1))) 0#32 = 0#1
    rw [bcast_lab]
    apply eq_zero_of_ne_one
    rw [IntOp.cmpi_slt]
    simp
    exact h0
  rw [hc, select_zero, bcast_lab]

/-- An and-fold from 1 over a one-element axis whose element is 1 is 1. -/
theorem fold_one (g : Fin 1 → BitVec 1) (h : g 0 = 1#1) :
    Finset.fold IntOp.andi (1#1) g (Finset.univ : Finset (Fin 1)) = 1#1 := by
  rw [Finset.univ_unique, Finset.fold_singleton]
  show IntOp.andi (g 0) 1#1 = 1#1
  rw [h]; decide

theorem inRange_apply (lab : IVec S1024 32) (n : Fin 1024) (h0 : 0 ≤ (lab (ix1 n)).toInt) (h1 : (lab (ix1 n)).toInt < 100000) :
    inRange lab (ix2 n (0 : Fin 1)) = 1#1 := by
  unfold inRange
  have hR : S1024x1x1.Reduces [2] S1024x1 := by decide
  rw [Host.reduce_eq_fold_single IntOp.andi _ _ reducesTo_S1024x1x1_S1024x1_d2 hR h_S_ (ix2 n (0 : Fin 1))]
  have hX : ∀ k : Fin 1, hR.lift (ix2 n (0 : Fin 1)) k = ix3 n (0 : Fin 1) (0 : Fin 1) := fun k => funext fun a => by
    match a with
    | ⟨0, _⟩ => rfl
    | ⟨1, _⟩ => rfl
    | ⟨2, _⟩ => exact Fin.ext (by have := k.isLt; show k.val = 0; omega)
  have hv : (andi (cmpi .sge (labIdx3 lab) (broadcastInDim S1024x1x1 ![] bcast_S_S1024x1x1 (constantI S_ 32 0#32)))
      (cmpi .sle (labIdx3 lab) (broadcastInDim S1024x1x1 ![0, 1, 2] bcast_S1x1x1_S1024x1x1_0_1_2 (broadcastInDim S1x1x1 ![2] bcast_S1_S1x1x1_2 (constantI S1 32 99999#32)))))
      (ix3 n (0 : Fin 1) (0 : Fin 1)) = 1#1 := by
    show IntOp.andi (IntOp.cmpi .sge (labIdx3 lab (ix3 n (0 : Fin 1) (0 : Fin 1))) 0#32) (IntOp.cmpi .sle (labIdx3 lab (ix3 n (0 : Fin 1) (0 : Fin 1))) 99999#32) = 1#1
    rw [labIdx3_apply lab n h0, IntOp.andi_eq_one, IntOp.cmpi_sge, IntOp.cmpi_sle]
    exact ⟨h0, by show (lab (ix1 n)).toInt ≤ (99999 : Int); omega⟩
  exact fold_one _ (by
    show (andi (cmpi .sge (labIdx3 lab) (broadcastInDim S1024x1x1 ![] bcast_S_S1024x1x1 (constantI S_ 32 0#32)))
      (cmpi .sle (labIdx3 lab) (broadcastInDim S1024x1x1 ![0, 1, 2] bcast_S1x1x1_S1024x1x1_0_1_2 (broadcastInDim S1x1x1 ![2] bcast_S1_S1x1x1_2 (constantI S1 32 99999#32)))))
      (hR.lift (ix2 n (0 : Fin 1)) (0 : Fin 1)) = 1#1
    rw [hX]; exact hv)

theorem refWfy_apply (xn : FVec Ideal S1024x512 .f32) (lab : IVec S1024 32) (W : FVec Ideal S100000x512 .f32)
    (n : Fin 1024) (kk : Fin 100000) (hl : (lab (ix1 n)).toInt = (kk.val : Int)) :
    refWfy xn lab W (ix1 n) = logit xn W n kk := by
  have h0 : 0 ≤ (lab (ix1 n)).toInt := by rw [hl]; exact Int.natCast_nonneg _
  have h1 : (lab (ix1 n)).toInt < 100000 := by rw [hl]; have := kk.isLt; omega
  unfold refWfy
  rw [shapeCast_apply _ shapeCasts_S1024x1_S1024 (ix1 n) (ix2 n (0 : Fin 1))
    (by rw [Shape.rowMajor_val_two, Shape.rowMajor_val_one]; show n.val * 1 + 0 = n.val; omega)]
  rw [select_apply, inRange_apply lab n h0 h1, select_one]
  rw [show Host.gather gather_S1024x100000_S1024x1x1_S1024x1_n_1_0_0_1_2_11 (scores xn W) (labIdx3 lab) (ix2 n (0 : Fin 1))
      = scores xn W (ix2 n (row (N := 100000) (by norm_num) (labIdx3 lab (ix3 n (0 : Fin 1) (0 : Fin 1)))))
    from gather_gathTA_apply (R := 1024) (N := 100000) (by norm_num) gather_S1024x100000_S1024x1x1_S1024x1_n_1_0_0_1_2_11.wf (scores xn W) (labIdx3 lab) n]
  rw [labIdx3_apply lab n h0, row_of_toInt _ _ kk hl, scores_apply]

end Cert.ReferenceIdeal.RefValue
end
-- ==== Proof.PreDecode.lean ====
/-
  The precondition read back: besides the finiteness of the two float inputs, it says that every label is a class
  number. Its last conjunct is `all (0 ≤ labels ∧ labels < 100000)`, an and-reduction to a scalar of the elementwise
  conjunction of two signed comparisons; the whole predicate being 1 gives, at each row `n`, `0 ≤ label n < 100000`
  as signed integers.
-/
import proofs.«407629_j39797166965247_1_alg».proof.Pre_finite_inputs
import Idealize.ShloMosaic.Lib.ReduceAll
import Idealize.ShloMosaic.Lib.Affine
import Idealize.ShloMosaic.Lib.ValueIdx
import Idealize.ShloMosaic.PureOps.Ideal

namespace Cert.Pre_finite_inputs.Decode
open Idealize.ShloMosaic Idealize.ShloMosaic.ValueIdx Cert.Pre_finite_inputs
variable [Cert.Pre_finite_inputs.Facts]

theorem labels_in_range (x : FVec Ideal S1024x512 .f32) (lab : IVec S1024 32) (W : FVec Ideal S100000x512 .f32)
    (h : Cert.Pre_finite_inputs.fn (F := Ideal) x lab W = fun _ => 1#1) (n : Fin 1024) :
    0 ≤ (lab (ix1 n)).toInt ∧ (lab (ix1 n)).toInt < 100000 := by
  have e := congrFun h ix0
  dsimp only [Cert.Pre_finite_inputs.fn] at e
  have e2 := (IntOp.andi_eq_one.mp e).2
  haveI : Subsingleton S_.Idx := ⟨fun a b => funext fun d => d.elim0⟩
  have e3 := Host.reduce_andi_all _ _ _ _ _ e2 (ix1 n)
  have e4 := IntOp.andi_eq_one.mp e3
  have h1 := IntOp.cmpi_sge.mp e4.1
  have h2 := IntOp.cmpi_slt.mp e4.2
  exact ⟨h1, h2⟩

end Cert.Pre_finite_inputs.Decode
-- ==== Proof.lean ====
/-
  The additive-margin softmax loss, a Pallas kernel against its jnp reference, equal over the extended reals.

  Both programs normalise the rows of `x`, and both end with the same scalar expression
  `−mean (30 · (wfy − 0.4) − log (exp (30 · (wfy − 0.4)) + sumall − exp (30 · wfy)))` of two vectors:
  the label scores `wfy n = xn_n · W_{label n}` and the full sums `sumall n = ∑ₖ exp (30 · xn_n · W_k)`.
  * The reference forms all 1024 × 100000 scores by one matrix product, reads `wfy` off it at the label column
    (`take_along_axis`, which fills in a not-a-number where the label is no class number) and sums the scaled
    exponentials of each row.
  * The kernel's program gathers the label rows of `W` first and takes `wfy` as row-wise inner products; its Pallas
    region computes `sumall` without ever forming the score matrix: a grid of 2 row blocks × 50 class blocks, a [512, 1]
    accumulator reset at the first class block, one [512, 512] × [2000, 512]ᵀ product, scaled exponential and row sum
    added per point, the accumulator written out at the last class block.
  At the extended reals the bf16 casts are the identity and sums regroup freely, so the 50 class-block sums are the
  full sum; with every label a class number (the precondition says so) both label scores are the same inner product.
  The loss expression is then one function of equal arguments. The frames of the two kernel programs are the generated
  ones; the reference's frame is its generated run with the result dropped; the ideal pass rewrote nothing.
-/
import proofs.«407629_j39797166965247_1_alg».proof.Defs
import proofs.«407629_j39797166965247_1_alg».proof.Proof.Gen.Kernel
import proofs.«407629_j39797166965247_1_alg».proof.Proof.Gen.Kernel.Skeleton
import proofs.«407629_j39797166965247_1_alg».proof.Proof.Gen.Kernel.Launch
import proofs.«407629_j39797166965247_1_alg».proof.Proof.Gen.Kernel.Points
import proofs.«407629_j39797166965247_1_alg».proof.Proof.Gen.Kernel.Frame
import proofs.«407629_j39797166965247_1_alg».proof.Proof.Gen.KernelIdeal
import proofs.«407629_j39797166965247_1_alg».proof.Proof.Gen.KernelIdeal.Skeleton
import proofs.«407629_j39797166965247_1_alg».proof.Proof.Gen.KernelIdeal.Launch
import proofs.«407629_j39797166965247_1_alg».proof.Proof.Gen.KernelIdeal.Points
import proofs.«407629_j39797166965247_1_alg».proof.Proof.Gen.KernelIdeal.Frame
import proofs.«407629_j39797166965247_1_alg».proof.Proof.Gen.ReferenceIdeal
import proofs.«407629_j39797166965247_1_alg».proof.Proof.Gen.ReferenceIdeal.Run
import proofs.«407629_j39797166965247_1_alg».proof.Proof.Gen.Pre_finite_inputs
import proofs.«407629_j39797166965247_1_alg».proof.Proof.KernelRun
import proofs.«407629_j39797166965247_1_alg».proof.Proof.KernelScore
import proofs.«407629_j39797166965247_1_alg».proof.Proof.RefValue
import proofs.«407629_j39797166965247_1_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx Cert.Proof.AdM

/-- With every label a class number, the two programs' label scores are the same vector: at row `n` both are
    `logit xn W n (label n)`. -/
theorem wfy_eq (xn : FVec Ideal Cert.KernelIdeal.S1024x512 .f32) (lab : IVec Cert.KernelIdeal.S1024 32)
    (W : FVec Ideal Cert.KernelIdeal.S100000x512 .f32)
    (hlab : ∀ n : Fin 1024, 0 ≤ (lab (ix1 n)).toInt ∧ (lab (ix1 n)).toInt < 100000) :
    Cert.KernelIdeal.HostSide.kerWfy xn lab W = Cert.ReferenceIdeal.RefValue.refWfy xn lab W := by
  funext i
  obtain ⟨n, rfl⟩ : ∃ n : Fin 1024, i = ix1 n := ⟨i 0, eq_ix1 i⟩
  obtain ⟨h0, h1⟩ := hlab n
  have hk : (lab (ix1 n)).toInt.toNat < 100000 := by omega
  have hl : (lab (ix1 n)).toInt = (((⟨(lab (ix1 n)).toInt.toNat, hk⟩ : Fin 100000).val : Nat) : Int) := by
    show (lab (ix1 n)).toInt = ((lab (ix1 n)).toInt.toNat : Int)
    omega
  rw [Cert.KernelIdeal.HostSide.kerWfy_apply xn lab W n _ hl, Cert.ReferenceIdeal.RefValue.refWfy_apply xn lab W n _ hl]

/-- The region's column of full sums, reshaped to a vector, is the reference's vector of row sums. -/
theorem sum_eq (xn : FVec Ideal Cert.KernelIdeal.S1024x512 .f32) (W : FVec Ideal Cert.KernelIdeal.S100000x512 .f32)
    (h : Cert.KernelIdeal.S1024x1.ShapeCasts Cert.KernelIdeal.S1024) :
    shapeCast Cert.KernelIdeal.S1024 (Cert.KernelIdeal.KRun.sumVec xn W) h = Cert.ReferenceIdeal.RefValue.refSum xn W := by
  funext i
  obtain ⟨n, rfl⟩ : ∃ n : Fin 1024, i = ix1 n := ⟨i 0, eq_ix1 i⟩
  rw [shapeCast_apply _ h (ix1 n) (ix2 n (0 : Fin 1))
    (by rw [Shape.rowMajor_val_two, Shape.rowMajor_val_one]; show n.val * 1 + 0 = n.val; omega),
    Cert.ReferenceIdeal.RefValue.refSum_apply]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end at the loss expression of the label scores and the full sums; the arguments agree, the labels are
    class numbers, so the two pairs of vectors are equal and the expression is one function of them. -/
theorem algebraic : Cert.algebraic_KernelIdeal_ReferenceIdeal := by
  intro m ρ m' ρ' hpre hagree
  refine ⟨_, Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.res_eq, (hagree c).1, (hagree c).2.1, (hagree c).2.2]
  have hlab := fun n => Cert.Pre_finite_inputs.Decode.labels_in_range _ _ _ (hpre c) n
  rw [wfy_eq _ _ _ hlab, sum_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
